-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x2048 : Shape := ⟨2, ![11008, 2048]⟩
abbrev S11008 : Shape := ⟨1, ![11008]⟩
abbrev S1x11008 : Shape := ⟨2, ![1, 11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_
  bcast_S_S1x11008 : S_.BroadcastsInDim S1x11008 (![] : Fin 0 → Fin S1x11008.rank)
  reducesTo_S1x11008_S_d0_1 : S1x11008.ReducesTo [0, 1] S_

variable [Facts]

def fn {F : FTy → Type} [FloatOps F] (main_arg0 : FVec F S4x2048x4096 .f32) (main_arg1 : IVec S11008x2048 32) (main_arg2 : FVec F S11008 .f32) (main_arg3 : IVec S11008 32) (main_arg4 : FVec F S1x11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S1x11008 .f32 := Host.absf main_arg4
  let main_cst_2 : FVec F S_ .f32 := constant S_ .f32 0x7F800000#32
  let main_v10 : FVec F S1x11008 .f32 := broadcastInDim S1x11008 ![] bcast_S_S1x11008 main_cst_2
  let main_v11 : IVec S1x11008 1 := cmpf .olt main_v9 main_v10
  let main_c_3 : IVec S_ 1 := constantI S_ 1 1#1
  let main_v12 : IVec S_ 1 := (fun x v => Host.reduce IntOp.andi x v reducesTo_S1x11008_S_d0_1 h_S_) main_v11 main_c_3
  let main_v13 : IVec S_ 1 := andi main_v8 main_v12
  main_v13
-- ==== Kernel.lean ====
abbrev S4x2048x4096 : Shape := ⟨3, ![4, 2048, 4096]⟩
abbrev S11008x2048 : Shape := ⟨2, ![11008, 2048]⟩
abbrev S11008 : Shape := ⟨1, ![11008]⟩
abbrev S1x11008 : Shape := ⟨2, ![1, 11008]⟩
abbrev S8192x4096 : Shape := ⟨2, ![8192, 4096]⟩
abbrev S8192x2048x2 : Shape := ⟨3, ![8192, 2048, 2]⟩
abbrev S8192x2048x1 : Shape := ⟨3, ![8192, 2048, 1]⟩
abbrev S8192x2048 : Shape := ⟨2, ![8192, 2048]⟩
abbrev S8192x11008 : Shape := ⟨2, ![8192, 11008]⟩
abbrev S1024x256 : Shape := ⟨2, ![1024, 256]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩
abbrev S4x2048x11008 : Shape := ⟨3, ![4, 2048, 11008]⟩

abbrev nBuf : Space → Nat
  | .hbm => 14
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008, .f32⟩
  | .hbm, ⟨3, _⟩ => ⟨S11008, .i32⟩
  | .hbm, ⟨4, _⟩ => ⟨S1x11008, .f32⟩
  | .hbm, ⟨5, _⟩ => ⟨S8192x4096, .f32⟩
  | .hbm, ⟨6, _⟩ => ⟨S8192x2048x2, .f32⟩
  | .hbm, ⟨7, _⟩ => ⟨S8192x2048x2, .bf16⟩
  | .hbm, ⟨8, _⟩ => ⟨S8192x2048x1, .bf16⟩
  | .hbm, ⟨9, _⟩ => ⟨S8192x2048, .bf16⟩
  | .hbm, ⟨10, _⟩ => ⟨S8192x2048x1, .bf16⟩
  | .hbm, ⟨11, _⟩ => ⟨S8192x2048, .bf16⟩
  | .hbm, ⟨12, _⟩ => ⟨S8192x11008, .f32⟩
  | .hbm, ⟨13, _⟩ => ⟨S4x2048x11008, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .i32⟩
  | .local _ .vmem, ⟨5, _⟩ => ⟨S1024x256, .i32⟩
  | .local _ .vmem, ⟨6, _⟩ => ⟨S1024, .f32⟩
  | .local _ .vmem, ⟨7, _⟩ => ⟨S1024, .f32⟩
  | .local _ .vmem, ⟨8, _⟩ => ⟨S1024, .i32⟩
  | .local _ .vmem, ⟨9, _⟩ => ⟨S1024, .i32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 11, 8], ![false, false, false]⟩

def k0_cond2 (i : grid0.Coords) : BitVec 1 :=
  let arg2 : BitVec 32 := BitVec.ofNat 32 (i 2).val
  let c7_i32 : BitVec 32 := 7#32
  let v41 : BitVec 1 := Scalar.cmpi .eq arg2 c7_i32
  let v42 : BitVec 32 := Scalar.extui v41
  let c0_i32_14 : BitVec 32 := 0#32
  let v43 : BitVec 1 := Scalar.cmpi .ne v42 c0_i32_14
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S4x2048x4096_S8192x4096 : S4x2048x4096.ShapeCasts S8192x4096
  shapeCasts_S8192x4096_S8192x2048x2 : S8192x4096.ShapeCasts S8192x2048x2
  bitsLt_bf16_f32 : FTy.bits .bf16 < FTy.bits .f32
  slices_S8192x2048x2_S8192x2048x1_0_0_0 : S8192x2048x2.Slices ![0, 0, 0] S8192x2048x1
  shapeCasts_S8192x2048x1_S8192x2048 : S8192x2048x1.ShapeCasts S8192x2048
  slices_S8192x2048x2_S8192x2048x1_0_0_1 : S8192x2048x2.Slices ![0, 0, 1] S8192x2048x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  inb_S1024_S1024_0 : ∀ a, (![0] : Fin 1 → Nat) a + S1024.size a ≤ S1024.size a
  h_S1024 : 0 < S1024.numel
  shapeCasts_S1024_S1024x1 : S1024.ShapeCasts S1024x1
  broadcasts_S1024x1_S1024x256 : S1024x1.Broadcasts S1024x256
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  shapeCasts_S8192x11008_S4x2048x11008 : S8192x11008.ShapeCasts S4x2048x11008
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x2048.size a
  hwx0_0 : ∀ i : grid0.Coords, EltTy.bits .bf16 = 32 ∨ (Rect.block (s := S8192x2048) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x2048.size a
  hwx0_1 : ∀ i : grid0.Coords, EltTy.bits .bf16 = 32 ∨ (Rect.block (s := S8192x2048) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x256.size a < S11008x2048.size a
  hwx0_2 : ∀ i : grid0.Coords, EltTy.bits .i32 = 32 ∨ (Rect.unit (s := S11008x2048) (fun a => cc0_transform_2 i a * S1024x256.size a) (fun a => (Pipeline.Clip.of (cc0_transform_2 i a) (S1024x256.size a) (S11008x2048.size a)).extent (S1024x256.size a)) fun a => Pipeline.Clip.inb (Pipeline.Clip.ok_of (hstart0_2 i a))).WholeWords (EltTy.packing .i32)
  hwxs0_2 : ∀ i : grid0.Coords, EltTy.bits .i32 = 32 ∨ (Rect.unit (s := S1024x256) (fun _ => 0) (fun a => (Pipeline.Clip.of (cc0_transform_2 i a) (S1024x256.size a) (S11008x2048.size a)).extent (S1024x256.size a)) fun a => (Nat.zero_add _).trans_le (Pipeline.Clip.extent_le (Pipeline.Clip.ok_of (hstart0_2 i a)))).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024.size a < S11008.size a
  hwx0_3 : ∀ i : grid0.Coords, EltTy.bits .f32 = 32 ∨ (Rect.unit (s := S11008) (fun a => cc0_transform_3 i a * S1024.size a) (fun a => (Pipeline.Clip.of (cc0_transform_3 i a) (S1024.size a) (S11008.size a)).extent (S1024.size a)) fun a => Pipeline.Clip.inb (Pipeline.Clip.ok_of (hstart0_3 i a))).WholeWords (EltTy.packing .f32)
  hwxs0_3 : ∀ i : grid0.Coords, EltTy.bits .f32 = 32 ∨ (Rect.unit (s := S1024) (fun _ => 0) (fun a => (Pipeline.Clip.of (cc0_transform_3 i a) (S1024.size a) (S11008.size a)).extent (S1024.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1024.size a < S11008.size a
  hwx0_4 : ∀ i : grid0.Coords, EltTy.bits .i32 = 32 ∨ (Rect.unit (s := S11008) (fun a => cc0_transform_4 i a * S1024.size a) (fun a => (Pipeline.Clip.of (cc0_transform_4 i a) (S1024.size a) (S11008.size a)).extent (S1024.size a)) fun a => Pipeline.Clip.inb (Pipeline.Clip.ok_of (hstart0_4 i a))).WholeWords (EltTy.packing .i32)
  hwxs0_4 : ∀ i : grid0.Coords, EltTy.bits .i32 = 32 ∨ (Rect.unit (s := S1024) (fun _ => 0) (fun a => (Pipeline.Clip.of (cc0_transform_4 i a) (S1024.size a) (S11008.size a)).extent (S1024.size a)) fun a => (Nat.zero_add _).trans_le (Pipeline.Clip.extent_le (Pipeline.Clip.ok_of (hstart0_4 i a)))).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1x1024.size a < S1x11008.size a
  hwx0_5 : ∀ i : grid0.Coords, EltTy.bits .f32 = 32 ∨ (Rect.unit (s := S1x11008) (fun a => cc0_transform_5 i a * S1x1024.size a) (fun a => (Pipeline.Clip.of (cc0_transform_5 i a) (S1x1024.size a) (S1x11008.size a)).extent (S1x1024.size a)) fun a => Pipeline.Clip.inb (Pipeline.Clip.ok_of (hstart0_5 i a))).WholeWords (EltTy.packing .f32)
  hwxs0_5 : ∀ i : grid0.Coords, EltTy.bits .f32 = 32 ∨ (Rect.unit (s := S1x1024) (fun _ => 0) (fun a => (Pipeline.Clip.of (cc0_transform_5 i a) (S1x1024.size a) (S1x11008.size a)).extent (S1x1024.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1024x1024.size a < S8192x11008.size a
  hwx0_6 : ∀ i : grid0.Coords, EltTy.bits .f32 = 32 ∨ (Rect.unit (s := S8192x11008) (fun a => cc0_transform_6 i a * S1024x1024.size a) (fun a => (Pipeline.Clip.of (cc0_transform_6 i a) (S1024x1024.size a) (S8192x11008.size a)).extent (S1024x1024.size a)) fun a => Pipeline.Clip.inb (Pipeline.Clip.ok_of (hstart0_6 i a))).WholeWords (EltTy.packing .f32)
  hwxs0_6 : ∀ i : grid0.Coords, EltTy.bits .f32 = 32 ∨ (Rect.unit (s := S1024x1024) (fun _ => 0) (fun a => (Pipeline.Clip.of (cc0_transform_6 i a) (S1024x1024.size a) (S8192x11008.size a)).extent (S1024x1024.size a)) fun a => (Nat.zero_add _).trans_le (Pipeline.Clip.extent_le (Pipeline.Clip.ok_of (hstart0_6 i a)))).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v4) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S1024x256.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg2) S1024.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_arg3) S1024.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_arg4) S1x1024.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v7) S1024x1024.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x2048 : Shape := ⟨2, ![11008, 2048]⟩
abbrev S11008 : Shape := ⟨1, ![11008]⟩
abbrev S1x11008 : Shape := ⟨2, ![1, 11008]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x1 : Shape := ⟨2, ![11008, 1]⟩
abbrev S4x2048x11008 : Shape := ⟨3, ![4, 2048, 11008]⟩
abbrev S1x1x11008 : Shape := ⟨3, ![1, 1, 11008]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x2048, .i32⟩
  | .hbm, ⟨2, _⟩ => ⟨S11008, .f32⟩
  | .hbm, ⟨3, _⟩ => ⟨S11008, .i32⟩
  | .hbm, ⟨4, _⟩ => ⟨S1x11008, .f32⟩
  | .hbm, ⟨5, _⟩ => ⟨S_, .i32⟩
  | .hbm, ⟨6, _⟩ => ⟨S11008x2048, .i32⟩
  | .hbm, ⟨7, _⟩ => ⟨S11008x2048, .i32⟩
  | .hbm, ⟨8, _⟩ => ⟨S_, .i32⟩
  | .hbm, ⟨9, _⟩ => ⟨S11008x2048, .i32⟩
  | .hbm, ⟨10, _⟩ => ⟨S11008x2048, .i32⟩
  | .hbm, ⟨11, _⟩ => ⟨S_, .i32⟩
  | .hbm, ⟨12, _⟩ => ⟨S11008x2048, .i32⟩
  | .hbm, ⟨13, _⟩ => ⟨S11008x2048, .i32⟩
  | .hbm, ⟨14, _⟩ => ⟨S11008x2048x1, .i32⟩
  | .hbm, ⟨15, _⟩ => ⟨S11008x2048x1, .i32⟩
  | .hbm, ⟨16, _⟩ => ⟨S11008x2048x2, .i32⟩
  | .hbm, ⟨17, _⟩ => ⟨S11008x4096, .i32⟩
  | .hbm, ⟨18, _⟩ => ⟨S11008x4096, .f32⟩
  | .hbm, ⟨19, _⟩ => ⟨S11008x1, .i32⟩
  | .hbm, ⟨20, _⟩ => ⟨S11008x1, .f32⟩
  | .hbm, ⟨21, _⟩ => ⟨S11008x4096, .f32⟩
  | .hbm, ⟨22, _⟩ => ⟨S11008x4096, .f32⟩
  | .hbm, ⟨23, _⟩ => ⟨S11008x1, .f32⟩
  | .hbm, ⟨24, _⟩ => ⟨S11008x4096, .f32⟩
  | .hbm, ⟨25, _⟩ => ⟨S11008x4096, .f32⟩
  | .hbm, ⟨26, _⟩ => ⟨S4x2048x11008, .f32⟩
  | .hbm, ⟨27, _⟩ => ⟨S1x1x11008, .f32⟩
  | .hbm, ⟨28, _⟩ => ⟨S4x2048x11008, .f32⟩
  | .hbm, ⟨29, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S1x11008_S1x1x11008_1_2 : S1x11008.BroadcastsInDim S1x1x11008 (![1, 2] : Fin 2 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.KernelBodyRun.lean ====
/-
  The kernel body at one grid point, on whatever its eight buffers hold.

  The body keeps a running sum in a scratch tile. At depth-step 0 it first overwrites the scratch with zero; at every
  step it adds the step's contribution, computed from the two input tiles, the packed weight tile, its scales and its
  zero points, to the scratch; at depth-step 7 it also stores the scratch plus the bias row into the result tile. It
  writes no input tile, and at the other steps it does not touch the result tile. Stated for any float instance: the
  values are the body's own arithmetic terms over what the buffers held.
-/
import proofs.«423594_j1623497638587_3_alg».proof.Proof.Gen.Kernel.Launch
import proofs.«423594_j1623497638587_3_alg».proof.Proof.Gen.Kernel.Skeleton
import proofs.«423594_j1623497638587_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's first branch is taken: the depth-step, as the body tests it, is 0. -/
abbrev condReset (i : grid0.Coords) : Prop :=
  Scalar.cmpi .ne (Scalar.extui (Scalar.cmpi .eq (BitVec.ofNat 32 (i 2).val) 0#32)) 0#32 = 1#1

/-- The body's last branch is taken: the depth-step is 7. -/
abbrev condLast (i : grid0.Coords) : Prop := k0_cond2 i = 1#1

/-- The first branch is taken exactly at the points whose depth-step is 0. -/
theorem hcondReset : ∀ t : Fin cfg0.N, condReset (grid0.coords t) ↔ t.val % 8 = 0 :=
  (by decide +kernel : ∀ t : Fin grid0.N, condReset (grid0.coords t) ↔ t.val % 8 = 0)

/-- The last branch is taken exactly at the points whose depth-step is 7. -/
theorem hcondLast : ∀ t : Fin cfg0.N, condLast (grid0.coords t) ↔ t.val % 8 = 7 :=
  (by decide +kernel : ∀ t : Fin grid0.N, condLast (grid0.coords t) ↔ t.val % 8 = 7)

set_option maxHeartbeats 1000000 in
/-- Depth-step 0: the scratch is zeroed, then the step's contribution is added to it. The result tile is left as
    found. -/
theorem run_first (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .i32) (harg5 : arg5.IsWhole) (arg6 : Memref sig .tc .vmem S1024 .f32) (harg6 : arg6.IsWhole)
    (arg7 : Memref sig .tc .vmem S1024 .i32) (harg7 : arg7.IsWhole) (arg8 : Memref sig .tc .vmem S1x1024 .f32) (harg8 : arg8.IsWhole)
    (arg9 : Memref sig .tc .vmem S1024x1024 .f32) (harg9 : arg9.IsWhole) (arg10 : Memref sig .tc .vmem S1024x1024 .f32) (harg10 : arg10.IsWhole)
    (hc0 : condReset i) (hc1 : ¬condLast i)
    (x0 x1 : Vec F S1024x256 .bf16) (x2 : Vec F S1024x256 .i32) (x3 : Vec F S1024 .f32) (x4 : Vec F S1024 .i32)
    (x5 : Vec F S1x1024 .f32) (x6 xs : Vec F S1024x1024 .f32) :
    ∀ (E : Set ℕ) (K : PUnit → sProp 𝕄),
      iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4 ∗ owns (c : Thread nD τ) arg8 fullShare x5
          ∗ owns (c : Thread nD τ) arg9 fullShare x6 ∗ owns (c : Thread nD τ) arg10 fullShare xs
          ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4 ∗ owns (c : Thread nD τ) arg8 fullShare x5
              ∗ owns (c : Thread nD τ) arg9 fullShare x6
              ∗ owns (c : Thread nD τ) arg10 fullShare (k0_pay1 (k0_pay4 x2 x4 x3 x0 x1 (k0_pay3 (F := F))))) -∗ K ⟨⟩))
        ⊢ wp frame (wpE (defs₀ (F := F)) Variants.none c none) E
            (cc0__w4a16_kernel i arg3 harg3 arg4 harg4 arg5 harg5 arg6 harg6 arg7 harg7 arg8 harg8 arg9 harg9 arg10 harg10) K := by
  intro E K
  simp only [cc0__w4a16_kernel_eq_skeleton]; unfold cc0__w4a16_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hfs
  sl_exec (disch := first | exact hc0 | exact hc1)
  sl_step
  iapply Hk
  have hz2 : (![0, 0] : Fin 2 → Nat) = fun _ => 0 := funext fun a => by fin_cases a <;> rfl
  have hz1 : (![0] : Fin 1 → Nat) = fun _ => 0 := funext fun a => by fin_cases a; rfl
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  iexists _; isplitr; swap; · iexact HS
  ipureintro
  sl_unfold_words
  rw [View.read_writes_eq_canon _ _ _ (fun y => ⟨_, List.Mem.head _, View.mem_set_unit_zero hz2 inb_S1024x1024_S1024x1024_0_0 y⟩)]
  rw [View.canon_cons_unit_zero hz2]
  simp only [View.readAt_eq_ld, harg3.read_unread, harg4.read_unread, harg5.read_unread, harg6.read_unread, harg7.read_unread,
    harg8.read_unread, harg10.read_unread, View.ld_unit_zero (S := S1024x256) hz2, View.ld_unit_zero (S := S1024) hz1,
    View.ld_unit_zero (S := S1024x1024) hz2, View.ld_unit_zero (S := S1x1024) hz2,
    View.readCov_unit_zero (S := S1024x1024) _ hz2]

set_option maxHeartbeats 1000000 in
/-- A middle depth-step: the step's contribution is added to the scratch. The result tile is left as found. -/
theorem run_middle (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .i32) (harg5 : arg5.IsWhole) (arg6 : Memref sig .tc .vmem S1024 .f32) (harg6 : arg6.IsWhole)
    (arg7 : Memref sig .tc .vmem S1024 .i32) (harg7 : arg7.IsWhole) (arg8 : Memref sig .tc .vmem S1x1024 .f32) (harg8 : arg8.IsWhole)
    (arg9 : Memref sig .tc .vmem S1024x1024 .f32) (harg9 : arg9.IsWhole) (arg10 : Memref sig .tc .vmem S1024x1024 .f32) (harg10 : arg10.IsWhole)
    (hc0 : ¬condReset i) (hc1 : ¬condLast i)
    (x0 x1 : Vec F S1024x256 .bf16) (x2 : Vec F S1024x256 .i32) (x3 : Vec F S1024 .f32) (x4 : Vec F S1024 .i32)
    (x5 : Vec F S1x1024 .f32) (x6 xs : Vec F S1024x1024 .f32) :
    ∀ (E : Set ℕ) (K : PUnit → sProp 𝕄),
      iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4 ∗ owns (c : Thread nD τ) arg8 fullShare x5
          ∗ owns (c : Thread nD τ) arg9 fullShare x6 ∗ owns (c : Thread nD τ) arg10 fullShare xs
          ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4 ∗ owns (c : Thread nD τ) arg8 fullShare x5
              ∗ owns (c : Thread nD τ) arg9 fullShare x6
              ∗ owns (c : Thread nD τ) arg10 fullShare (k0_pay1 (k0_pay4 x2 x4 x3 x0 x1 xs))) -∗ K ⟨⟩))
        ⊢ wp frame (wpE (defs₀ (F := F)) Variants.none c none) E
            (cc0__w4a16_kernel i arg3 harg3 arg4 harg4 arg5 harg5 arg6 harg6 arg7 harg7 arg8 harg8 arg9 harg9 arg10 harg10) K := by
  intro E K
  simp only [cc0__w4a16_kernel_eq_skeleton]; unfold cc0__w4a16_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hfs
  sl_exec (disch := first | exact hc0 | exact hc1)
  sl_step
  iapply Hk
  have hz2 : (![0, 0] : Fin 2 → Nat) = fun _ => 0 := funext fun a => by fin_cases a <;> rfl
  have hz1 : (![0] : Fin 1 → Nat) = fun _ => 0 := funext fun a => by fin_cases a; rfl
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  iexists _; isplitr; swap; · iexact HS
  ipureintro
  sl_unfold_words
  rw [View.read_writes_eq_canon _ _ _ (fun y => ⟨_, List.Mem.head _, View.mem_set_unit_zero hz2 inb_S1024x1024_S1024x1024_0_0 y⟩)]
  rw [View.canon_unit_zero hz2]
  simp only [View.readAt_eq_ld, harg3.read_unread, harg4.read_unread, harg5.read_unread, harg6.read_unread, harg7.read_unread,
    harg8.read_unread, harg10.read_unread, View.ld_unit_zero (S := S1024x256) hz2, View.ld_unit_zero (S := S1024) hz1,
    View.ld_unit_zero (S := S1024x1024) hz2, View.ld_unit_zero (S := S1x1024) hz2,
    View.readCov_unit_zero (S := S1024x1024) _ hz2]

set_option maxHeartbeats 1000000 in
/-- Depth-step 7: the step's contribution is added to the scratch, and the scratch plus the bias row is stored into
    the result tile. -/
theorem run_last (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .i32) (harg5 : arg5.IsWhole) (arg6 : Memref sig .tc .vmem S1024 .f32) (harg6 : arg6.IsWhole)
    (arg7 : Memref sig .tc .vmem S1024 .i32) (harg7 : arg7.IsWhole) (arg8 : Memref sig .tc .vmem S1x1024 .f32) (harg8 : arg8.IsWhole)
    (arg9 : Memref sig .tc .vmem S1024x1024 .f32) (harg9 : arg9.IsWhole) (arg10 : Memref sig .tc .vmem S1024x1024 .f32) (harg10 : arg10.IsWhole)
    (hc0 : ¬condReset i) (hc1 : condLast i)
    (x0 x1 : Vec F S1024x256 .bf16) (x2 : Vec F S1024x256 .i32) (x3 : Vec F S1024 .f32) (x4 : Vec F S1024 .i32)
    (x5 : Vec F S1x1024 .f32) (x6 xs : Vec F S1024x1024 .f32) :
    ∀ (E : Set ℕ) (K : PUnit → sProp 𝕄),
      iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4 ∗ owns (c : Thread nD τ) arg8 fullShare x5
          ∗ owns (c : Thread nD τ) arg9 fullShare x6 ∗ owns (c : Thread nD τ) arg10 fullShare xs
          ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4 ∗ owns (c : Thread nD τ) arg8 fullShare x5
              ∗ owns (c : Thread nD τ) arg9 fullShare (k0_pay2 (k0_pay1 (k0_pay4 x2 x4 x3 x0 x1 xs)) x5)
              ∗ owns (c : Thread nD τ) arg10 fullShare (k0_pay1 (k0_pay4 x2 x4 x3 x0 x1 xs))) -∗ K ⟨⟩))
        ⊢ wp frame (wpE (defs₀ (F := F)) Variants.none c none) E
            (cc0__w4a16_kernel i arg3 harg3 arg4 harg4 arg5 harg5 arg6 harg6 arg7 harg7 arg8 harg8 arg9 harg9 arg10 harg10) K := by
  intro E K
  simp only [cc0__w4a16_kernel_eq_skeleton]; unfold cc0__w4a16_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hfs
  sl_exec (disch := first | exact hc0 | exact hc1)
  sl_step
  iapply Hk
  have hz2 : (![0, 0] : Fin 2 → Nat) = fun _ => 0 := funext fun a => by fin_cases a <;> rfl
  have hz1 : (![0] : Fin 1 → Nat) = fun _ => 0 := funext fun a => by fin_cases a; rfl
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    sl_unfold_words
    rw [View.read_writes_eq_canon _ _ _ (fun y => ⟨_, List.Mem.head _, View.mem_set_unit_zero hz2 inb_S1024x1024_S1024x1024_0_0 y⟩)]
    rw [View.canon_unit_zero hz2]
    simp only [View.readAt_eq_ld, harg3.read_unread, harg4.read_unread, harg5.read_unread, harg6.read_unread, harg7.read_unread,
      harg8.read_unread, harg10.read_unread, View.ld_unit_zero (S := S1024x256) hz2, View.ld_unit_zero (S := S1024) hz1,
      View.ld_unit_zero (S := S1024x1024) hz2, View.ld_unit_zero (S := S1x1024) hz2,
      View.readCov_unit_zero (S := S1024x1024) _ hz2]
  iexists _; isplitr; swap; · iexact HS
  ipureintro
  sl_unfold_words
  rw [View.read_writes_eq_canon _ _ _ (fun y => ⟨_, List.Mem.head _, View.mem_set_unit_zero hz2 inb_S1024x1024_S1024x1024_0_0 y⟩)]
  rw [View.canon_unit_zero hz2]
  simp only [View.readAt_eq_ld, harg3.read_unread, harg4.read_unread, harg5.read_unread, harg6.read_unread, harg7.read_unread,
    harg8.read_unread, harg10.read_unread, View.ld_unit_zero (S := S1024x256) hz2, View.ld_unit_zero (S := S1024) hz1,
    View.ld_unit_zero (S := S1024x1024) hz2, View.ld_unit_zero (S := S1x1024) hz2,
    View.readCov_unit_zero (S := S1024x1024) _ hz2]

end Cert.Kernel.Body

end
-- ==== Proof.KernelFrame.lean ====
/-
  The word-level program's frame: it runs to the end, faults nowhere and leaves its five inputs as they were.

  Nothing is said of what the result array holds: the result window is handed to the body at any contents and taken back
  at any contents, and the scratch tile is carried at some contents. What is tracked is what the inputs' staging buffers
  hold, so that each is handed back as it was found: a buffer of a never-cut window holds its block; a buffer of a
  channel-indexed window holds its block on the channels inside the array and unnamed words past them, at every point,
  fetched there or not, because an unfetched point has the block index of the point before.
-/
import proofs.«423594_j1623497638587_3_alg».proof.Proof.KernelBodyRun
import proofs.«423594_j1623497638587_3_alg».proof.Proof.Gen.Kernel.Frame
import Idealize.ShloMosaic.Lib.Pipeline.FrameSuffix

set_option maxRecDepth 16384

noncomputable section

namespace Cert.Kernel.FrameProof

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one window whose contents are named nowhere: the result. -/
def forgets : Fin 7 → Bool := fun w => w.val == 6

/-- The proof data on core `c`: the arrays as the region finds them; after the body at point `t` each never-cut input's
    buffer at its block, each channel-indexed input's buffer at its block on the part the transfer moves and at an
    unnamed word elsewhere, the result's buffer at unnamed contents; the invariant holds the scratch tile at some
    contents and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (cfg0.win 2).fill (cfg0.grid.coords t) (fun _ => Classical.arbitrary _) (iblk m c 2 t)
    | ⟨3, _⟩ => (cfg0.win 3).fill (cfg0.grid.coords t) (fun _ => Classical.arbitrary _) (iblk m c 3 t)
    | ⟨4, _⟩ => (cfg0.win 4).fill (cfg0.grid.coords t) (fun _ => Classical.arbitrary _) (iblk m c 4 t)
    | ⟨5, _⟩ => (cfg0.win 5).fill (cfg0.grid.coords t) (fun _ => Classical.arbitrary _) (iblk m c 5 t)
    | ⟨6, h⟩ => Pipeline.Dat.unnamed (cfg := cfg0) ⟨6, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t
    = (cfg0.win 2).fill (cfg0.grid.coords t) (fun _ => Classical.arbitrary _) (iblk m c 2 t) := by dsimp only [dats]
theorem after0_3 (c : Dev nD) (t : Fin cfg0.N) : (dats m 0 c).after 3 t
    = (cfg0.win 3).fill (cfg0.grid.coords t) (fun _ => Classical.arbitrary _) (iblk m c 3 t) := by dsimp only [dats]
theorem after0_4 (c : Dev nD) (t : Fin cfg0.N) : (dats m 0 c).after 4 t
    = (cfg0.win 4).fill (cfg0.grid.coords t) (fun _ => Classical.arbitrary _) (iblk m c 4 t) := by dsimp only [dats]
theorem after0_5 (c : Dev nD) (t : Fin cfg0.N) : (dats m 0 c).after 5 t
    = (cfg0.win 5).fill (cfg0.grid.coords t) (fun _ => Classical.arbitrary _) (iblk m c 5 t) := by dsimp only [dats]

/-! ## The cuts are a function of the block index -/

theorem clip2 (t t' : Fin cfg0.N) (h : (cfg0.win 2).index t = (cfg0.win 2).index t') :
    (cfg0.win 2).clip (cfg0.grid.coords t) = (cfg0.win 2).clip (cfg0.grid.coords t') := by
  -- the cut on an axis is computed from the block index there, the block's size and the array's extent
  funext a
  have h' : cc0_transform_2 (grid0.coords t) = cc0_transform_2 (grid0.coords t') := h
  show Pipeline.Clip.of (cc0_transform_2 (grid0.coords t) a) (S1024x256.size a) (S11008x2048.size a)
    = Pipeline.Clip.of (cc0_transform_2 (grid0.coords t') a) (S1024x256.size a) (S11008x2048.size a)
  rw [h']
theorem clip3 (t t' : Fin cfg0.N) (h : (cfg0.win 3).index t = (cfg0.win 3).index t') :
    (cfg0.win 3).clip (cfg0.grid.coords t) = (cfg0.win 3).clip (cfg0.grid.coords t') := by
  funext a
  have h' : cc0_transform_3 (grid0.coords t) = cc0_transform_3 (grid0.coords t') := h
  show Pipeline.Clip.of (cc0_transform_3 (grid0.coords t) a) (S1024.size a) (S11008.size a)
    = Pipeline.Clip.of (cc0_transform_3 (grid0.coords t') a) (S1024.size a) (S11008.size a)
  rw [h']
theorem clip4 (t t' : Fin cfg0.N) (h : (cfg0.win 4).index t = (cfg0.win 4).index t') :
    (cfg0.win 4).clip (cfg0.grid.coords t) = (cfg0.win 4).clip (cfg0.grid.coords t') := by
  funext a
  have h' : cc0_transform_4 (grid0.coords t) = cc0_transform_4 (grid0.coords t') := h
  show Pipeline.Clip.of (cc0_transform_4 (grid0.coords t) a) (S1024.size a) (S11008.size a)
    = Pipeline.Clip.of (cc0_transform_4 (grid0.coords t') a) (S1024.size a) (S11008.size a)
  rw [h']
theorem clip5 (t t' : Fin cfg0.N) (h : (cfg0.win 5).index t = (cfg0.win 5).index t') :
    (cfg0.win 5).clip (cfg0.grid.coords t) = (cfg0.win 5).clip (cfg0.grid.coords t') := by
  funext a
  have h' : cc0_transform_5 (grid0.coords t) = cc0_transform_5 (grid0.coords t') := h
  show Pipeline.Clip.of (cc0_transform_5 (grid0.coords t) a) (S1x1024.size a) (S1x11008.size a)
    = Pipeline.Clip.of (cc0_transform_5 (grid0.coords t') a) (S1x1024.size a) (S1x11008.size a)
  rw [h']

/-! ## What the body finds in each input's buffer -/

/-- A never-cut input's buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- A channel-indexed input's buffer holds, at every point, what a fetch there puts in it: the block on the part the
    transfer moves, what it held elsewhere. -/
theorem before0_2 (c : Dev nD) (t : Fin cfg0.N) (d) :
    (dats m 0 c).before 2 t d = (cfg0.win 2).fill (cfg0.grid.coords t) d (iblk m c 2 t) :=
  ((dats m 0 c).before_in_eq_fetched 2 rfl (fun _ => rfl) clip2
    (fun t => by rw [after0_2, Window.cut_fill]; unfold Dat.blockOf iblk; rw [A_eq]) t d).trans
    (by unfold Dat.fetched Dat.blockOf iblk; rw [A_eq])
theorem before0_3 (c : Dev nD) (t : Fin cfg0.N) (d) :
    (dats m 0 c).before 3 t d = (cfg0.win 3).fill (cfg0.grid.coords t) d (iblk m c 3 t) :=
  ((dats m 0 c).before_in_eq_fetched 3 rfl (fun _ => rfl) clip3
    (fun t => by rw [after0_3, Window.cut_fill]; unfold Dat.blockOf iblk; rw [A_eq]) t d).trans
    (by unfold Dat.fetched Dat.blockOf iblk; rw [A_eq])
theorem before0_4 (c : Dev nD) (t : Fin cfg0.N) (d) :
    (dats m 0 c).before 4 t d = (cfg0.win 4).fill (cfg0.grid.coords t) d (iblk m c 4 t) :=
  ((dats m 0 c).before_in_eq_fetched 4 rfl (fun _ => rfl) clip4
    (fun t => by rw [after0_4, Window.cut_fill]; unfold Dat.blockOf iblk; rw [A_eq]) t d).trans
    (by unfold Dat.fetched Dat.blockOf iblk; rw [A_eq])
theorem before0_5 (c : Dev nD) (t : Fin cfg0.N) (d) :
    (dats m 0 c).before 5 t d = (cfg0.win 5).fill (cfg0.grid.coords t) d (iblk m c 5 t) :=
  ((dats m 0 c).before_in_eq_fetched 5 rfl (fun _ => rfl) clip5
    (fun t => by rw [after0_5, Window.cut_fill]; unfold Dat.blockOf iblk; rw [A_eq]) t d).trans
    (by unfold Dat.fetched Dat.blockOf iblk; rw [A_eq])

/-! ## The body obligation, at a generic point -/

/-- What the obligation asks back of a never-cut input's buffer: the block. -/
theorem leaves0_0 (c : Dev nD) (t : Fin cfg0.N) :
    (dats m 0 c).leaves 0 t = owns (c : Thread nD τ) (st0_0 t) fullShare (iblk m c 0 t) := by
  show owns (c : Thread nD τ) (st0_0 t) fullShare ((dats m 0 c).after 0 t) = _
  rw [after0_0]
theorem leaves0_1 (c : Dev nD) (t : Fin cfg0.N) :
    (dats m 0 c).leaves 1 t = owns (c : Thread nD τ) (st0_1 t) fullShare (iblk m c 1 t) := by
  show owns (c : Thread nD τ) (st0_1 t) fullShare ((dats m 0 c).after 1 t) = _
  rw [after0_1]

/-- What it asks back of a channel-indexed input's buffer: the block on the part the transfer moves, anything
    elsewhere. -/
theorem leaves0_2 (c : Dev nD) (t : Fin cfg0.N) :
    (dats m 0 c).leaves 2 t
      = iprop(∃ d, owns (c : Thread nD τ) (st0_2 t) fullShare ((cfg0.win 2).fill (cfg0.grid.coords t) d (iblk m c 2 t))) := by
  show iprop(∃ d, owns (c : Thread nD τ) (st0_2 t) fullShare
    ((cfg0.win 2).fill (cfg0.grid.coords t) d ((cfg0.win 2).cut (cfg0.grid.coords t) ((dats m 0 c).after 2 t)))) = _
  rw [after0_2, Window.cut_fill]
theorem leaves0_3 (c : Dev nD) (t : Fin cfg0.N) :
    (dats m 0 c).leaves 3 t
      = iprop(∃ d, owns (c : Thread nD τ) (st0_3 t) fullShare ((cfg0.win 3).fill (cfg0.grid.coords t) d (iblk m c 3 t))) := by
  show iprop(∃ d, owns (c : Thread nD τ) (st0_3 t) fullShare
    ((cfg0.win 3).fill (cfg0.grid.coords t) d ((cfg0.win 3).cut (cfg0.grid.coords t) ((dats m 0 c).after 3 t)))) = _
  rw [after0_3, Window.cut_fill]
theorem leaves0_4 (c : Dev nD) (t : Fin cfg0.N) :
    (dats m 0 c).leaves 4 t
      = iprop(∃ d, owns (c : Thread nD τ) (st0_4 t) fullShare ((cfg0.win 4).fill (cfg0.grid.coords t) d (iblk m c 4 t))) := by
  show iprop(∃ d, owns (c : Thread nD τ) (st0_4 t) fullShare
    ((cfg0.win 4).fill (cfg0.grid.coords t) d ((cfg0.win 4).cut (cfg0.grid.coords t) ((dats m 0 c).after 4 t)))) = _
  rw [after0_4, Window.cut_fill]
theorem leaves0_5 (c : Dev nD) (t : Fin cfg0.N) :
    (dats m 0 c).leaves 5 t
      = iprop(∃ d, owns (c : Thread nD τ) (st0_5 t) fullShare ((cfg0.win 5).fill (cfg0.grid.coords t) d (iblk m c 5 t))) := by
  show iprop(∃ d, owns (c : Thread nD τ) (st0_5 t) fullShare
    ((cfg0.win 5).fill (cfg0.grid.coords t) d ((cfg0.win 5).cut (cfg0.grid.coords t) ((dats m 0 c).after 5 t)))) = _
  rw [after0_5, Window.cut_fill]

/-- The scratch tile as the invariant holds it and as the body's triple names it. -/
theorem scr_eq (c : Dev nD) (xs : Vec F S1024x1024 .f32) :
    (owns (c : Thread nD τ) (Memref.whole cc0_scratch0) fullShare xs : sProp 𝕄)
      = iprop(∃ f : Buf (Elt F) ((c : Thread nD τ).loc cc0_scratch0), ⌜f = xs⌝ ∗ (((c : Thread nD τ).loc cc0_scratch0) ↦{fullShare} f)) :=
  owns_whole_eq (c : Thread nD τ) cc0_scratch0 fullShare xs

/-- The invariant's scratch tile, at its contents, is the tile the body's triple takes; -/
theorem scr_in (c : Dev nD) (g : Buf (Elt F) ((c : Thread nD τ).loc cc0_scratch0)) :
    ((((c : Thread nD τ).loc cc0_scratch0) ↦{fullShare} g : sProp 𝕄))
      ⊢ owns (c : Thread nD τ) (Memref.whole cc0_scratch0) fullShare g := by
  rw [scr_eq]
  iintro H; iexists g; isplitr; · ipureintro; rfl
  iexact H
/-- and the tile the triple hands back, whatever it holds, is the invariant's. -/
theorem scr_out (c : Dev nD) (xs : Vec F S1024x1024 .f32) :
    (owns (c : Thread nD τ) (Memref.whole cc0_scratch0) fullShare xs : sProp 𝕄)
      ⊢ iprop(∃ f : Buf (Elt F) ((c : Thread nD τ).loc cc0_scratch0), ((c : Thread nD τ).loc cc0_scratch0) ↦{fullShare} f) := by
  rw [scr_eq]
  iintro ⟨%f, -, H⟩; iexists f; iexact H

/-- What the body is called with at point `t`, the windows one by one: each input's buffer at what it then holds, the
    result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (∃ X, owns (c : Thread nD τ) (st0_6 t) fullShare X))

set_option maxHeartbeats 1200000 in
/-- The body at any point: each input's buffer holds what a fetch there puts in it, the invariant yields the scratch
    tile at some contents and takes it back at some contents; the depth-step says which of the body's three runs the
    point takes; every input's buffer comes back as it was handed over. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    leaves0_0, leaves0_1, leaves0_2, leaves0_3, leaves0_4, leaves0_5,
    show (dats m 0 c).Φ t.castSucc = Pipeline.ΦA spec0 c from rfl]
  unfold Pipeline.ΦA
  rw [scopedRest0_eq]
  by_cases h0 : t.val % 8 = 0
  · have h7 : ¬ t.val % 8 = 7 := by omega
    iintro ⟨⟨⟨%g, HS⟩, HR⟩, Ho, ⟨%d0, H0⟩, ⟨%d1, H1⟩, ⟨%d2, H2⟩, ⟨%d3, H3⟩, ⟨%d4, H4⟩, ⟨%d5, H5⟩, ⟨%X6, H6⟩⟩
    iapply (run_first c (grid0.coords t) _ _ _ _ _ _ _ _ _ _ _ _ _ _ (Memref.whole cc0_scratch0) (Memref.isWhole_whole _)
      ((hcondReset t).mpr h0) (fun h => h7 ((hcondLast t).mp h)) _ _ _ _ _ _ X6 g Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iapply (scr_in c g); iexact HS
    iintro ⟨H0, H1, H2, H3, H4, H5, H6, HS⟩
    isplitl [HS HR]
    · isplitl [HS]; · iapply (scr_out c _); iexact HS
      iexact HR
    isplitl [Ho]; · iexact Ho
    isplitl [H0]; · iexact H0
    isplitl [H1]; · iexact H1
    isplitl [H2]; · iexists d2; iexact H2
    isplitl [H3]; · iexists d3; iexact H3
    isplitl [H4]; · iexists d4; iexact H4
    isplitl [H5]; · iexists d5; iexact H5
    iexists _; iexact H6
  · by_cases h7 : t.val % 8 = 7
    · -- the last depth-step
      iintro ⟨⟨⟨%g, HS⟩, HR⟩, Ho, ⟨%d0, H0⟩, ⟨%d1, H1⟩, ⟨%d2, H2⟩, ⟨%d3, H3⟩, ⟨%d4, H4⟩, ⟨%d5, H5⟩, ⟨%X6, H6⟩⟩
      iapply (run_last c (grid0.coords t) _ _ _ _ _ _ _ _ _ _ _ _ _ _ (Memref.whole cc0_scratch0) (Memref.isWhole_whole _)
        (fun h => h0 ((hcondReset t).mp h)) ((hcondLast t).mpr h7) _ _ _ _ _ _ X6 g Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iapply (scr_in c g); iexact HS
      iintro ⟨H0, H1, H2, H3, H4, H5, H6, HS⟩
      isplitl [HS HR]
      · isplitl [HS]; · iapply (scr_out c _); iexact HS
        iexact HR
      isplitl [Ho]; · iexact Ho
      isplitl [H0]; · iexact H0
      isplitl [H1]; · iexact H1
      isplitl [H2]; · iexists d2; iexact H2
      isplitl [H3]; · iexists d3; iexact H3
      isplitl [H4]; · iexists d4; iexact H4
      isplitl [H5]; · iexists d5; iexact H5
      iexists _; iexact H6
    · -- a middle depth-step
      iintro ⟨⟨⟨%g, HS⟩, HR⟩, Ho, ⟨%d0, H0⟩, ⟨%d1, H1⟩, ⟨%d2, H2⟩, ⟨%d3, H3⟩, ⟨%d4, H4⟩, ⟨%d5, H5⟩, ⟨%X6, H6⟩⟩
      iapply (run_middle c (grid0.coords t) _ _ _ _ _ _ _ _ _ _ _ _ _ _ (Memref.whole cc0_scratch0) (Memref.isWhole_whole _)
        (fun h => h0 ((hcondReset t).mp h)) (fun h => h7 ((hcondLast t).mp h)) _ _ _ _ _ _ X6 g Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iapply (scr_in c g); iexact HS
      iintro ⟨H0, H1, H2, H3, H4, H5, H6, HS⟩
      isplitl [HS HR]
      · isplitl [HS]; · iapply (scr_out c _); iexact HS
        iexact HR
      isplitl [Ho]; · iexact Ho
      isplitl [H0]; · iexact H0
      isplitl [H1]; · iexact H1
      isplitl [H2]; · iexists d2; iexact H2
      isplitl [H3]; · iexists d3; iexact H3
      isplitl [H4]; · iexists d4; iexact H4
      isplitl [H5]; · iexists d5; iexact H5
      iexists _; iexact H6

/-- The body obligation, at every point: the windows' conjunction taken apart. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

/-- The one host line after the region writes the reshaped result and nothing else. -/
theorem sfx_writes : ∀ ops ∈ ([hostOps1] : List (List (HloOp τ sig (Elt F)))), ∀ op ∈ ops,
    ∀ b : Ref sig .tc, Proc.devRef .tc b ∈ op.writes → b ∈ ({main_v8} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  rw [StableHlo.reshape_writes, Finset.mem_singleton] at hb
  exact Finset.mem_singleton.mpr (Proc.devRef_injective _ hb)

set_option backward.isDefEq.respectTransparency.types false in
/-- At the compiled mesh, for any values, from any memory with zero counters: every weakly fair execution of the program
    terminates, and every final state has every input array of the pipeline at its region-entry contents and every
    other unscoped buffer that the last host line does not write as the region found it. Nothing is stated of the
    result array or of its reshaped copy. -/
theorem run_main : θ_run defs (onTc (τ := τ) (main (F := F))) (s₀ m ρ)
    (Pipeline.RDat.FramePostR (cfgs 0) (fun c => (dats m 0 c).toRForget forgets) {main_v8} (fun c b => V0 m c (Proc.devRef .tc b))) :=
  Pipeline.RDat.θ_run_frame_around_T cfgs (0 : Fin 1) launch0 defs₀ Variants.none (fun c => (dats m 0 c).toRForget forgets) {main_v8} m ρ main
    (hbody := fun c => (body_obligation m c).toRForget) (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- The frame claim's post, at any float instance: every weakly fair execution terminates without a fault and the
    five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ)
  refine ⟨?_, ?_, ?_, ?_, ?_⟩
  · -- the first argument is no window's array and the last host line does not write it
    exact ((h c).2 main_arg0 (Finset.mem_sdiff.mpr ⟨Pipeline.mem_restRefs_of main_arg0 (by decide) (by decide),
      fun hm => absurd (Finset.mem_singleton.mp hm) (by decide)⟩)).trans (V_main_arg0 m c)
  · exact (Pipeline.RDat.FramePostR.arr_in h c 2 rfl).trans ((A_eq m c 2).trans (V_main_arg1 m c))
  · exact (Pipeline.RDat.FramePostR.arr_in h c 3 rfl).trans ((A_eq m c 3).trans (V_main_arg2 m c))
  · exact (Pipeline.RDat.FramePostR.arr_in h c 4 rfl).trans ((A_eq m c 4).trans (V_main_arg3 m c))
  · exact (Pipeline.RDat.FramePostR.arr_in h c 5 rfl).trans ((A_eq m c 5).trans (V_main_arg4 m c))

end Cert.Kernel.FrameProof

end
-- ==== Proof.BodyRun.lean ====
/-
  The kernel body at one grid point, on whatever its eight buffers hold.

  The body keeps a running sum in a scratch tile. At depth-step 0 it first overwrites the scratch with zero; at every
  step it adds the step's contribution, computed from the two input tiles, the packed weight tile, its scales and its
  zero points, to the scratch; at depth-step 7 it also stores the scratch plus the bias row into the result tile. It
  writes no input tile, and at the other steps it does not touch the result tile. Stated for any float instance: the
  values are the body's own arithmetic terms over what the buffers held.
-/
import proofs.«423594_j1623497638587_3_alg».proof.Proof.Gen.KernelIdeal.Launch
import proofs.«423594_j1623497638587_3_alg».proof.Proof.Gen.KernelIdeal.Skeleton
import proofs.«423594_j1623497638587_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's first branch is taken: the depth-step, as the body tests it, is 0. -/
abbrev condReset (i : grid0.Coords) : Prop :=
  Scalar.cmpi .ne (Scalar.extui (Scalar.cmpi .eq (BitVec.ofNat 32 (i 2).val) 0#32)) 0#32 = 1#1

/-- The body's last branch is taken: the depth-step is 7. -/
abbrev condLast (i : grid0.Coords) : Prop := k0_cond2 i = 1#1

/-- The first branch is taken exactly at the points whose depth-step is 0. -/
theorem hcondReset : ∀ t : Fin cfg0.N, condReset (grid0.coords t) ↔ t.val % 8 = 0 :=
  (by decide +kernel : ∀ t : Fin grid0.N, condReset (grid0.coords t) ↔ t.val % 8 = 0)

/-- The last branch is taken exactly at the points whose depth-step is 7. -/
theorem hcondLast : ∀ t : Fin cfg0.N, condLast (grid0.coords t) ↔ t.val % 8 = 7 :=
  (by decide +kernel : ∀ t : Fin grid0.N, condLast (grid0.coords t) ↔ t.val % 8 = 7)

set_option maxHeartbeats 1000000 in
/-- Depth-step 0: the scratch is zeroed, then the step's contribution is added to it. The result tile is left as
    found. -/
theorem run_first (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .i32) (harg5 : arg5.IsWhole) (arg6 : Memref sig .tc .vmem S1024 .f32) (harg6 : arg6.IsWhole)
    (arg7 : Memref sig .tc .vmem S1024 .i32) (harg7 : arg7.IsWhole) (arg8 : Memref sig .tc .vmem S1x1024 .f32) (harg8 : arg8.IsWhole)
    (arg9 : Memref sig .tc .vmem S1024x1024 .f32) (harg9 : arg9.IsWhole) (arg10 : Memref sig .tc .vmem S1024x1024 .f32) (harg10 : arg10.IsWhole)
    (hc0 : condReset i) (hc1 : ¬condLast i)
    (x0 x1 : Vec F S1024x256 .bf16) (x2 : Vec F S1024x256 .i32) (x3 : Vec F S1024 .f32) (x4 : Vec F S1024 .i32)
    (x5 : Vec F S1x1024 .f32) (x6 xs : Vec F S1024x1024 .f32) :
    ∀ (E : Set ℕ) (K : PUnit → sProp 𝕄),
      iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4 ∗ owns (c : Thread nD τ) arg8 fullShare x5
          ∗ owns (c : Thread nD τ) arg9 fullShare x6 ∗ owns (c : Thread nD τ) arg10 fullShare xs
          ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4 ∗ owns (c : Thread nD τ) arg8 fullShare x5
              ∗ owns (c : Thread nD τ) arg9 fullShare x6
              ∗ owns (c : Thread nD τ) arg10 fullShare (k0_pay1 (k0_pay4 x2 x4 x3 x0 x1 (k0_pay3 (F := F))))) -∗ K ⟨⟩))
        ⊢ wp frame (wpE (defs₀ (F := F)) Variants.none c none) E
            (cc0__w4a16_kernel i arg3 harg3 arg4 harg4 arg5 harg5 arg6 harg6 arg7 harg7 arg8 harg8 arg9 harg9 arg10 harg10) K := by
  intro E K
  simp only [cc0__w4a16_kernel_eq_skeleton]; unfold cc0__w4a16_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hfs
  sl_exec (disch := first | exact hc0 | exact hc1)
  sl_step
  iapply Hk
  have hz2 : (![0, 0] : Fin 2 → Nat) = fun _ => 0 := funext fun a => by fin_cases a <;> rfl
  have hz1 : (![0] : Fin 1 → Nat) = fun _ => 0 := funext fun a => by fin_cases a; rfl
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  iexists _; isplitr; swap; · iexact HS
  ipureintro
  sl_unfold_words
  rw [View.read_writes_eq_canon _ _ _ (fun y => ⟨_, List.Mem.head _, View.mem_set_unit_zero hz2 inb_S1024x1024_S1024x1024_0_0 y⟩)]
  rw [View.canon_cons_unit_zero hz2]
  simp only [View.readAt_eq_ld, harg3.read_unread, harg4.read_unread, harg5.read_unread, harg6.read_unread, harg7.read_unread,
    harg8.read_unread, harg10.read_unread, View.ld_unit_zero (S := S1024x256) hz2, View.ld_unit_zero (S := S1024) hz1,
    View.ld_unit_zero (S := S1024x1024) hz2, View.ld_unit_zero (S := S1x1024) hz2,
    View.readCov_unit_zero (S := S1024x1024) _ hz2]

set_option maxHeartbeats 1000000 in
/-- A middle depth-step: the step's contribution is added to the scratch. The result tile is left as found. -/
theorem run_middle (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .i32) (harg5 : arg5.IsWhole) (arg6 : Memref sig .tc .vmem S1024 .f32) (harg6 : arg6.IsWhole)
    (arg7 : Memref sig .tc .vmem S1024 .i32) (harg7 : arg7.IsWhole) (arg8 : Memref sig .tc .vmem S1x1024 .f32) (harg8 : arg8.IsWhole)
    (arg9 : Memref sig .tc .vmem S1024x1024 .f32) (harg9 : arg9.IsWhole) (arg10 : Memref sig .tc .vmem S1024x1024 .f32) (harg10 : arg10.IsWhole)
    (hc0 : ¬condReset i) (hc1 : ¬condLast i)
    (x0 x1 : Vec F S1024x256 .bf16) (x2 : Vec F S1024x256 .i32) (x3 : Vec F S1024 .f32) (x4 : Vec F S1024 .i32)
    (x5 : Vec F S1x1024 .f32) (x6 xs : Vec F S1024x1024 .f32) :
    ∀ (E : Set ℕ) (K : PUnit → sProp 𝕄),
      iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4 ∗ owns (c : Thread nD τ) arg8 fullShare x5
          ∗ owns (c : Thread nD τ) arg9 fullShare x6 ∗ owns (c : Thread nD τ) arg10 fullShare xs
          ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4 ∗ owns (c : Thread nD τ) arg8 fullShare x5
              ∗ owns (c : Thread nD τ) arg9 fullShare x6
              ∗ owns (c : Thread nD τ) arg10 fullShare (k0_pay1 (k0_pay4 x2 x4 x3 x0 x1 xs))) -∗ K ⟨⟩))
        ⊢ wp frame (wpE (defs₀ (F := F)) Variants.none c none) E
            (cc0__w4a16_kernel i arg3 harg3 arg4 harg4 arg5 harg5 arg6 harg6 arg7 harg7 arg8 harg8 arg9 harg9 arg10 harg10) K := by
  intro E K
  simp only [cc0__w4a16_kernel_eq_skeleton]; unfold cc0__w4a16_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hfs
  sl_exec (disch := first | exact hc0 | exact hc1)
  sl_step
  iapply Hk
  have hz2 : (![0, 0] : Fin 2 → Nat) = fun _ => 0 := funext fun a => by fin_cases a <;> rfl
  have hz1 : (![0] : Fin 1 → Nat) = fun _ => 0 := funext fun a => by fin_cases a; rfl
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  iexists _; isplitr; swap; · iexact HS
  ipureintro
  sl_unfold_words
  rw [View.read_writes_eq_canon _ _ _ (fun y => ⟨_, List.Mem.head _, View.mem_set_unit_zero hz2 inb_S1024x1024_S1024x1024_0_0 y⟩)]
  rw [View.canon_unit_zero hz2]
  simp only [View.readAt_eq_ld, harg3.read_unread, harg4.read_unread, harg5.read_unread, harg6.read_unread, harg7.read_unread,
    harg8.read_unread, harg10.read_unread, View.ld_unit_zero (S := S1024x256) hz2, View.ld_unit_zero (S := S1024) hz1,
    View.ld_unit_zero (S := S1024x1024) hz2, View.ld_unit_zero (S := S1x1024) hz2,
    View.readCov_unit_zero (S := S1024x1024) _ hz2]

set_option maxHeartbeats 1000000 in
/-- Depth-step 7: the step's contribution is added to the scratch, and the scratch plus the bias row is stored into
    the result tile. -/
theorem run_last (c : Dev nD) (i : grid0.Coords)
    (arg3 : Memref sig .tc .vmem S1024x256 .bf16) (harg3 : arg3.IsWhole) (arg4 : Memref sig .tc .vmem S1024x256 .bf16) (harg4 : arg4.IsWhole)
    (arg5 : Memref sig .tc .vmem S1024x256 .i32) (harg5 : arg5.IsWhole) (arg6 : Memref sig .tc .vmem S1024 .f32) (harg6 : arg6.IsWhole)
    (arg7 : Memref sig .tc .vmem S1024 .i32) (harg7 : arg7.IsWhole) (arg8 : Memref sig .tc .vmem S1x1024 .f32) (harg8 : arg8.IsWhole)
    (arg9 : Memref sig .tc .vmem S1024x1024 .f32) (harg9 : arg9.IsWhole) (arg10 : Memref sig .tc .vmem S1024x1024 .f32) (harg10 : arg10.IsWhole)
    (hc0 : ¬condReset i) (hc1 : condLast i)
    (x0 x1 : Vec F S1024x256 .bf16) (x2 : Vec F S1024x256 .i32) (x3 : Vec F S1024 .f32) (x4 : Vec F S1024 .i32)
    (x5 : Vec F S1x1024 .f32) (x6 xs : Vec F S1024x1024 .f32) :
    ∀ (E : Set ℕ) (K : PUnit → sProp 𝕄),
      iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4 ∗ owns (c : Thread nD τ) arg8 fullShare x5
          ∗ owns (c : Thread nD τ) arg9 fullShare x6 ∗ owns (c : Thread nD τ) arg10 fullShare xs
          ∗ (iprop(owns (c : Thread nD τ) arg3 fullShare x0 ∗ owns (c : Thread nD τ) arg4 fullShare x1 ∗ owns (c : Thread nD τ) arg5 fullShare x2
              ∗ owns (c : Thread nD τ) arg6 fullShare x3 ∗ owns (c : Thread nD τ) arg7 fullShare x4 ∗ owns (c : Thread nD τ) arg8 fullShare x5
              ∗ owns (c : Thread nD τ) arg9 fullShare (k0_pay2 (k0_pay1 (k0_pay4 x2 x4 x3 x0 x1 xs)) x5)
              ∗ owns (c : Thread nD τ) arg10 fullShare (k0_pay1 (k0_pay4 x2 x4 x3 x0 x1 xs))) -∗ K ⟨⟩))
        ⊢ wp frame (wpE (defs₀ (F := F)) Variants.none c none) E
            (cc0__w4a16_kernel i arg3 harg3 arg4 harg4 arg5 harg5 arg6 harg6 arg7 harg7 arg8 harg8 arg9 harg9 arg10 harg10) K := by
  intro E K
  simp only [cc0__w4a16_kernel_eq_skeleton]; unfold cc0__w4a16_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hfs
  sl_exec (disch := first | exact hc0 | exact hc1)
  sl_step
  iapply Hk
  have hz2 : (![0, 0] : Fin 2 → Nat) = fun _ => 0 := funext fun a => by fin_cases a <;> rfl
  have hz1 : (![0] : Fin 1 → Nat) = fun _ => 0 := funext fun a => by fin_cases a; rfl
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro
    sl_unfold_words
    rw [View.read_writes_eq_canon _ _ _ (fun y => ⟨_, List.Mem.head _, View.mem_set_unit_zero hz2 inb_S1024x1024_S1024x1024_0_0 y⟩)]
    rw [View.canon_unit_zero hz2]
    simp only [View.readAt_eq_ld, harg3.read_unread, harg4.read_unread, harg5.read_unread, harg6.read_unread, harg7.read_unread,
      harg8.read_unread, harg10.read_unread, View.ld_unit_zero (S := S1024x256) hz2, View.ld_unit_zero (S := S1024) hz1,
      View.ld_unit_zero (S := S1024x1024) hz2, View.ld_unit_zero (S := S1x1024) hz2,
      View.readCov_unit_zero (S := S1024x1024) _ hz2]
  iexists _; isplitr; swap; · iexact HS
  ipureintro
  sl_unfold_words
  rw [View.read_writes_eq_canon _ _ _ (fun y => ⟨_, List.Mem.head _, View.mem_set_unit_zero hz2 inb_S1024x1024_S1024x1024_0_0 y⟩)]
  rw [View.canon_unit_zero hz2]
  simp only [View.readAt_eq_ld, harg3.read_unread, harg4.read_unread, harg5.read_unread, harg6.read_unread, harg7.read_unread,
    harg8.read_unread, harg10.read_unread, View.ld_unit_zero (S := S1024x256) hz2, View.ld_unit_zero (S := S1024) hz1,
    View.ld_unit_zero (S := S1024x1024) hz2, View.ld_unit_zero (S := S1x1024) hz2,
    View.readCov_unit_zero (S := S1024x1024) _ hz2]

end Cert.KernelIdeal.Body

end
-- ==== Proof.Spec.lean ====
/-
  The mathematics both programs compute.

  A weight byte p holds two 4-bit codes: bits 0-3 (the low nibble) and bits 4-7 (the high nibble). A code q of output
  channel o is dequantized as (q - z o) * s o, with z the channel's zero point and s its scale. The layer's weight row
  of channel o interleaves the two codes of each byte: W o (2 j) comes from the low nibble of byte j, W o (2 j + 1) from
  the high nibble. The layer is  out (b, t, o) = (sum over i < 4096 of x (b, t, i) * W o i) + bias o.

  Grouping the 4096 products in pairs (2 j, 2 j + 1) gives the form stated here as `G`: a sum over the 2048 bytes of
  the pair term. One side reaches it by splitting a sum over 4096 into pairs; the other by joining eight blocks of 256
  bytes, each block a sum over even positions plus a sum over odd positions, accumulated one block after the other from
  zero. Both are rearrangements of a finite sum in a commutative monoid, so no finiteness of the inputs is needed.
-/
import Idealize.ShloMosaic.PureOps.Ideal
import Idealize.ShloMosaic.Lib.ValueIdx

noncomputable section

namespace Cert.Spec

open Idealize.ShloMosaic Idealize.ShloMosaic.ValueIdx

/-- Bits 0-3 of a packed word. -/
def nibLo (p : BitVec 32) : BitVec 32 := p &&& 15#32
/-- Bits 4-7 of a packed word. -/
def nibHi (p : BitVec 32) : BitVec 32 := (p.sshiftRight' 4#32) &&& 15#32

/-- Masking the word to a byte first does not change bits 0-3. -/
theorem nibLo_byte (p : BitVec 32) : (p &&& 255#32) &&& 15#32 = nibLo p := by
  unfold nibLo
  rw [BitVec.and_assoc]
  rfl

/-- The word 15 has no bit set at position 4 or above. -/
private theorem fifteen_hi (i : Nat) (h : 4 ≤ i) : (15#32).getLsbD i = false := by
  rw [BitVec.getLsbD_ofNat]
  have : (15 : Nat).testBit i = false :=
    Nat.testBit_lt_two_pow (lt_of_lt_of_le (by norm_num) (Nat.pow_le_pow_right (by norm_num) h))
  rw [this]; simp

/-- Masking the word to a byte first does not change bits 4-7: the arithmetic shift's sign fill lands above bit 27,
    and the mask keeps bits 0-3 of the shifted word only. -/
theorem nibHi_byte (p : BitVec 32) : ((p &&& 255#32).sshiftRight' 4#32) &&& 15#32 = nibHi p := by
  unfold nibHi
  apply BitVec.eq_of_getLsbD_eq
  intro i hi
  rw [BitVec.getLsbD_and, BitVec.getLsbD_and]
  by_cases h : i < 4
  · -- bit i < 4 of the shifted word is bit 4 + i < 8 of the word, which the byte mask keeps
    congr 1
    rw [BitVec.sshiftRight_eq', BitVec.sshiftRight_eq', BitVec.getLsbD_sshiftRight, BitVec.getLsbD_sshiftRight]
    have h4 : (4#32 : BitVec 32).toNat = 4 := rfl
    rw [h4]
    have h1 : 4 + i < 32 := by omega
    have h2 : ¬ (32 ≤ i) := by omega
    simp only [h1, h2, if_true, decide_false, Bool.not_false, Bool.true_and, BitVec.getLsbD_and]
    have : (255#32).getLsbD (4 + i) = true := by
      interval_cases i <;> rfl
    rw [this, Bool.and_true]
  · -- bit i ≥ 4 is cleared by the mask 15 on both sides
    rw [fifteen_hi i (by omega), Bool.and_false, Bool.and_false]

/-- A code dequantized: (q - z) * s, the integers read signed and exactly. -/
def deq (q z : BitVec 32) (s : EReal) : EReal := (((q.toInt : ℝ) : EReal) - ((z.toInt : ℝ) : EReal)) * s

/-- One byte's contribution: the even input against the low code plus the odd input against the high code. -/
def pairTerm (xe xo : EReal) (p z : BitVec 32) (s : EReal) : EReal :=
  xe * deq (nibLo p) z s + xo * deq (nibHi p) z s

/-- The layer over the de-interleaved inputs: row `r` of the even-position inputs `xe` and of the odd-position
    inputs `xo` (each [8192, 2048]) against channel `o`. -/
def G2 (xe xo : (⟨2, ![8192, 2048]⟩ : Shape).Idx → EReal) (p : (⟨2, ![11008, 2048]⟩ : Shape).Idx → BitVec 32)
    (s : (⟨1, ![11008]⟩ : Shape).Idx → EReal) (z : (⟨1, ![11008]⟩ : Shape).Idx → BitVec 32)
    (b : (⟨2, ![1, 11008]⟩ : Shape).Idx → EReal) (r : Fin 8192) (o : Fin 11008) : EReal :=
  (∑ j : Fin 2048, pairTerm (xe (ix2 r j)) (xo (ix2 r j)) (p (ix2 o j)) (z (ix1 o)) (s (ix1 o))) + b (ix2 (0 : Fin 1) o)

/-- Position 2 j of a row of 4096. -/
def evenPos (j : Fin 2048) : Fin 4096 := ⟨2 * j.val, by omega⟩
/-- Position 2 j + 1 of a row of 4096. -/
def oddPos (j : Fin 2048) : Fin 4096 := ⟨2 * j.val + 1, by omega⟩

/-- The layer over the inputs as given: batch `bi`, token `ti`, channel `o`. -/
def G (x : (⟨3, ![4, 2048, 4096]⟩ : Shape).Idx → EReal) (p : (⟨2, ![11008, 2048]⟩ : Shape).Idx → BitVec 32)
    (s : (⟨1, ![11008]⟩ : Shape).Idx → EReal) (z : (⟨1, ![11008]⟩ : Shape).Idx → BitVec 32)
    (b : (⟨2, ![1, 11008]⟩ : Shape).Idx → EReal) (bi : Fin 4) (ti : Fin 2048) (o : Fin 11008) : EReal :=
  (∑ j : Fin 2048, pairTerm (x (ix3 bi ti (evenPos j))) (x (ix3 bi ti (oddPos j))) (p (ix2 o j)) (z (ix1 o)) (s (ix1 o)))
    + b (ix2 (0 : Fin 1) o)

/-- The interleaved weight row: position i of channel o takes the low code of byte i / 2 when i is even, the high
    code when i is odd. -/
def wRow (p : (⟨2, ![11008, 2048]⟩ : Shape).Idx → BitVec 32) (s : (⟨1, ![11008]⟩ : Shape).Idx → EReal)
    (z : (⟨1, ![11008]⟩ : Shape).Idx → BitVec 32) (o : Fin 11008) (i : Fin 4096) : EReal :=
  deq (if i.val % 2 = 0 then nibLo (p (ix2 o ⟨i.val / 2, by omega⟩)) else nibHi (p (ix2 o ⟨i.val / 2, by omega⟩)))
    (z (ix1 o)) (s (ix1 o))

/-- The pair (j, b) names position 2 j + b of a row of 4096. -/
private def pairEquiv : Fin 2048 × Fin 2 ≃ Fin 4096 :=
  (finProdFinEquiv (m := 2048) (n := 2)).trans (finCongr (by norm_num))

private theorem pairEquiv_val (j : Fin 2048) (c : Fin 2) : (pairEquiv (j, c)).val = c.val + 2 * j.val := rfl

private theorem pairEquiv_zero (j : Fin 2048) : pairEquiv (j, 0) = evenPos j :=
  Fin.ext (by rw [pairEquiv_val]; show (0 : ℕ) + 2 * j.val = 2 * j.val; omega)

private theorem pairEquiv_one (j : Fin 2048) : pairEquiv (j, 1) = oddPos j :=
  Fin.ext (by rw [pairEquiv_val]; show (1 : ℕ) + 2 * j.val = 2 * j.val + 1; omega)

/-- A sum over 4096 positions is the sum over 2048 pairs. -/
theorem sum_pairs (f : Fin 4096 → EReal) : ∑ i : Fin 4096, f i = ∑ j : Fin 2048, (f (evenPos j) + f (oddPos j)) := by
  rw [← Equiv.sum_comp pairEquiv f, Fintype.sum_prod_type]
  refine Finset.sum_congr rfl fun j _ => ?_
  rw [Fin.sum_univ_two, pairEquiv_zero, pairEquiv_one]

/-- At an even position 2 j the weight row holds the low code of byte j. -/
private theorem wRow_even (p : (⟨2, ![11008, 2048]⟩ : Shape).Idx → BitVec 32) (s : (⟨1, ![11008]⟩ : Shape).Idx → EReal)
    (z : (⟨1, ![11008]⟩ : Shape).Idx → BitVec 32) (o : Fin 11008) (j : Fin 2048) :
    wRow p s z o (evenPos j) = deq (nibLo (p (ix2 o j))) (z (ix1 o)) (s (ix1 o)) := by
  have h : (evenPos j).val % 2 = 0 := by show (2 * j.val) % 2 = 0; omega
  have h2 : ∀ hh, (⟨(evenPos j).val / 2, hh⟩ : Fin 2048) = j :=
    fun hh => Fin.ext (by show (2 * j.val) / 2 = j.val; omega)
  unfold wRow
  rw [if_pos h, h2]

/-- At an odd position 2 j + 1 the weight row holds the high code of byte j. -/
private theorem wRow_odd (p : (⟨2, ![11008, 2048]⟩ : Shape).Idx → BitVec 32) (s : (⟨1, ![11008]⟩ : Shape).Idx → EReal)
    (z : (⟨1, ![11008]⟩ : Shape).Idx → BitVec 32) (o : Fin 11008) (j : Fin 2048) :
    wRow p s z o (oddPos j) = deq (nibHi (p (ix2 o j))) (z (ix1 o)) (s (ix1 o)) := by
  have h : ¬ (oddPos j).val % 2 = 0 := by show ¬ (2 * j.val + 1) % 2 = 0; omega
  have h2 : ∀ hh, (⟨(oddPos j).val / 2, hh⟩ : Fin 2048) = j :=
    fun hh => Fin.ext (by show (2 * j.val + 1) / 2 = j.val; omega)
  unfold wRow
  rw [if_neg h, h2]

/-- The plain form of the layer (one sum over the 4096 inputs against the interleaved weight row, plus the bias) is
    `G`. -/
theorem G_eq_plain (x : (⟨3, ![4, 2048, 4096]⟩ : Shape).Idx → EReal) (p : (⟨2, ![11008, 2048]⟩ : Shape).Idx → BitVec 32)
    (s : (⟨1, ![11008]⟩ : Shape).Idx → EReal) (z : (⟨1, ![11008]⟩ : Shape).Idx → BitVec 32)
    (b : (⟨2, ![1, 11008]⟩ : Shape).Idx → EReal) (bi : Fin 4) (ti : Fin 2048) (o : Fin 11008) :
    (∑ i : Fin 4096, x (ix3 bi ti i) * wRow p s z o i) + b (ix2 (0 : Fin 1) o) = G x p s z b bi ti o := by
  unfold G
  refine congrArg (· + b (ix2 (0 : Fin 1) o)) ?_
  rw [sum_pairs]
  refine Finset.sum_congr rfl fun j _ => ?_
  rw [wRow_even, wRow_odd]
  rfl

/-- Byte position 256 k + i of a row of 2048: position i of block k. -/
def bytePos (k : Fin 8) (i : Fin 256) : Fin 2048 := ⟨256 * k.val + i.val, by omega⟩

/-- What one block of 256 bytes adds to the running sum: the even inputs against the low codes, plus the odd inputs
    against the high codes. -/
def blockTerm (xe xo : (⟨2, ![8192, 2048]⟩ : Shape).Idx → EReal) (p : (⟨2, ![11008, 2048]⟩ : Shape).Idx → BitVec 32)
    (s : (⟨1, ![11008]⟩ : Shape).Idx → EReal) (z : (⟨1, ![11008]⟩ : Shape).Idx → BitVec 32)
    (r : Fin 8192) (o : Fin 11008) (k : Fin 8) : EReal :=
  (∑ i : Fin 256, xe (ix2 r (bytePos k i)) * deq (nibLo (p (ix2 o (bytePos k i)))) (z (ix1 o)) (s (ix1 o)))
    + (∑ i : Fin 256, xo (ix2 r (bytePos k i)) * deq (nibHi (p (ix2 o (bytePos k i)))) (z (ix1 o)) (s (ix1 o)))

/-- The running sum after the first `n` blocks, from zero, one block added after the other. -/
def accS (xe xo : (⟨2, ![8192, 2048]⟩ : Shape).Idx → EReal) (p : (⟨2, ![11008, 2048]⟩ : Shape).Idx → BitVec 32)
    (s : (⟨1, ![11008]⟩ : Shape).Idx → EReal) (z : (⟨1, ![11008]⟩ : Shape).Idx → BitVec 32)
    (r : Fin 8192) (o : Fin 11008) : ℕ → EReal
  | 0 => 0
  | n + 1 => accS xe xo p s z r o n + (if h : n < 8 then blockTerm xe xo p s z r o ⟨n, h⟩ else 0)

/-- One more block: the running sum after n + 1 blocks, n < 8, is the one after n blocks plus block n. -/
private theorem accS_succ (xe xo : (⟨2, ![8192, 2048]⟩ : Shape).Idx → EReal) (p : (⟨2, ![11008, 2048]⟩ : Shape).Idx → BitVec 32)
    (s : (⟨1, ![11008]⟩ : Shape).Idx → EReal) (z : (⟨1, ![11008]⟩ : Shape).Idx → BitVec 32)
    (r : Fin 8192) (o : Fin 11008) (n : ℕ) (h : n < 8) :
    accS xe xo p s z r o (n + 1) = accS xe xo p s z r o n + blockTerm xe xo p s z r o ⟨n, h⟩ := by
  show accS xe xo p s z r o n + (if h : n < 8 then blockTerm xe xo p s z r o ⟨n, h⟩ else 0) = _
  rw [dif_pos h]

/-- The running sum after eight blocks is the sum of the eight block terms. -/
private theorem accS_eight_blocks (xe xo : (⟨2, ![8192, 2048]⟩ : Shape).Idx → EReal)
    (p : (⟨2, ![11008, 2048]⟩ : Shape).Idx → BitVec 32)
    (s : (⟨1, ![11008]⟩ : Shape).Idx → EReal) (z : (⟨1, ![11008]⟩ : Shape).Idx → BitVec 32)
    (r : Fin 8192) (o : Fin 11008) :
    accS xe xo p s z r o 8 = ∑ k : Fin 8, blockTerm xe xo p s z r o k := by
  have hs := accS_succ xe xo p s z r o
  have h0 : accS xe xo p s z r o 0 = 0 := rfl
  rw [Fin.sum_univ_eight, hs 7 (by omega), hs 6 (by omega), hs 5 (by omega), hs 4 (by omega), hs 3 (by omega),
    hs 2 (by omega), hs 1 (by omega), hs 0 (by omega), h0, zero_add]
  rfl

/-- A block term is the sum over the block's 256 bytes of the pair terms. -/
private theorem blockTerm_eq (xe xo : (⟨2, ![8192, 2048]⟩ : Shape).Idx → EReal)
    (p : (⟨2, ![11008, 2048]⟩ : Shape).Idx → BitVec 32)
    (s : (⟨1, ![11008]⟩ : Shape).Idx → EReal) (z : (⟨1, ![11008]⟩ : Shape).Idx → BitVec 32)
    (r : Fin 8192) (o : Fin 11008) (k : Fin 8) :
    blockTerm xe xo p s z r o k = ∑ i : Fin 256, pairTerm (xe (ix2 r (bytePos k i))) (xo (ix2 r (bytePos k i)))
      (p (ix2 o (bytePos k i))) (z (ix1 o)) (s (ix1 o)) := by
  unfold blockTerm
  rw [← Finset.sum_add_distrib]
  rfl

/-- The pair (k, i) names byte 256 k + i of a row of 2048. -/
private def blockEquiv : Fin 8 × Fin 256 ≃ Fin 2048 :=
  (finProdFinEquiv (m := 8) (n := 256)).trans (finCongr (by norm_num))

private theorem blockEquiv_apply (k : Fin 8) (i : Fin 256) : blockEquiv (k, i) = bytePos k i :=
  Fin.ext (by show i.val + 256 * k.val = 256 * k.val + i.val; omega)

/-- Eight blocks of 256 bytes, one after the other, are the 2048 bytes. -/
private theorem sum_blocks (F : Fin 2048 → EReal) : ∑ k : Fin 8, ∑ i : Fin 256, F (bytePos k i) = ∑ j : Fin 2048, F j := by
  rw [← Equiv.sum_comp blockEquiv F, Fintype.sum_prod_type]
  simp only [blockEquiv_apply]

/-- The eight blocks, accumulated in order from zero, are the sum over all 2048 bytes of the pair terms. -/
theorem accS_eight (xe xo : (⟨2, ![8192, 2048]⟩ : Shape).Idx → EReal) (p : (⟨2, ![11008, 2048]⟩ : Shape).Idx → BitVec 32)
    (s : (⟨1, ![11008]⟩ : Shape).Idx → EReal) (z : (⟨1, ![11008]⟩ : Shape).Idx → BitVec 32)
    (r : Fin 8192) (o : Fin 11008) :
    accS xe xo p s z r o 8 = ∑ j : Fin 2048, pairTerm (xe (ix2 r j)) (xo (ix2 r j)) (p (ix2 o j)) (z (ix1 o)) (s (ix1 o)) := by
  rw [accS_eight_blocks,
    ← sum_blocks (fun j => pairTerm (xe (ix2 r j)) (xo (ix2 r j)) (p (ix2 o j)) (z (ix1 o)) (s (ix1 o)))]
  exact Finset.sum_congr rfl fun k _ => blockTerm_eq xe xo p s z r o k

/-- So the accumulated blocks plus the bias are the layer over the de-interleaved inputs. -/
theorem accS_eight_add_bias (xe xo : (⟨2, ![8192, 2048]⟩ : Shape).Idx → EReal)
    (p : (⟨2, ![11008, 2048]⟩ : Shape).Idx → BitVec 32) (s : (⟨1, ![11008]⟩ : Shape).Idx → EReal)
    (z : (⟨1, ![11008]⟩ : Shape).Idx → BitVec 32) (b : (⟨2, ![1, 11008]⟩ : Shape).Idx → EReal)
    (r : Fin 8192) (o : Fin 11008) :
    accS xe xo p s z r o 8 + b (ix2 (0 : Fin 1) o) = G2 xe xo p s z b r o := by
  rw [accS_eight]; rfl

/-- Row b * 2048 + t of the flattened [8192, ·] arrays. -/
def flatRow (bi : Fin 4) (ti : Fin 2048) : Fin 8192 := ⟨bi.val * 2048 + ti.val, by omega⟩

/-- With the even- and odd-position inputs read off `x`, the de-interleaved form is `G`. -/
theorem G2_eq_G (x : (⟨3, ![4, 2048, 4096]⟩ : Shape).Idx → EReal) (xe xo : (⟨2, ![8192, 2048]⟩ : Shape).Idx → EReal)
    (p : (⟨2, ![11008, 2048]⟩ : Shape).Idx → BitVec 32) (s : (⟨1, ![11008]⟩ : Shape).Idx → EReal)
    (z : (⟨1, ![11008]⟩ : Shape).Idx → BitVec 32) (b : (⟨2, ![1, 11008]⟩ : Shape).Idx → EReal)
    (bi : Fin 4) (ti : Fin 2048) (o : Fin 11008)
    (he : ∀ j : Fin 2048, xe (ix2 (flatRow bi ti) j) = x (ix3 bi ti (evenPos j)))
    (ho : ∀ j : Fin 2048, xo (ix2 (flatRow bi ti) j) = x (ix3 bi ti (oddPos j))) :
    G2 xe xo p s z b (flatRow bi ti) o = G x p s z b bi ti o := by
  unfold G2 G
  exact congrArg (· + b (ix2 (0 : Fin 1) o)) (Finset.sum_congr rfl fun j _ => by rw [he j, ho j])

end Cert.Spec

end
-- ==== Proof.LibDotT.lean ====
/-
  A matrix product against a transposed right operand, read at an entry.

  For dimension numbers that contract axis 1 of BOTH operands, keep axis 0 of both, and have no batch axes
  (l [M, K] against r [N, K], result [M, N]: the product l rᵀ), the operand indices at the result entry (p, q) and
  contraction position k are (p, k) and (q, k). So, at the ideal values, a `tpu.matmul` into the zero accumulator is
  the sum  ∑ k, l (p, k) * r (q, k)  over the extended reals. Stated for ANY record with those six lists, at any
  extents and element formats.
-/
import Idealize.ShloMosaic.Lib.ValueIdx
import Idealize.ShloMosaic.PureOps.Ideal.Laws

noncomputable section

namespace Idealize.ShloMosaic.DotT

open Idealize.ShloMosaic Idealize.ShloMosaic.ValueIdx

variable {M K N : Nat} (d : DotDims ⟨2, ![M, K]⟩ ⟨2, ![N, K]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's column. -/
theorem rhs_row (hln : d.lhsNonContracting = [0]) (hrn : d.rhsNonContracting = [0]) (hlb : d.lhsBatch = [])
    (hrb : d.rhsBatch = []) (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- The right operand's column is the contraction position. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- A `tpu.matmul` of such a record into the zero accumulator, at the ideal values and at entry (p, q): the sum over
    the contraction positions of the products of the left operand's row p and the right operand's row q. -/
theorem matmul_zero_apply {φ₁ φ₂ : FTy}
    (hlc : d.lhsContracting = [1]) (hrc : d.rhsContracting = [1]) (hln : d.lhsNonContracting = [0])
    (hrn : d.rhsNonContracting = [0]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![N, K]⟩ φ₂)
    (p : Fin M) (q : Fin N) :
    FloatOps.matmul d prec l r (constant (F := Ideal) ⟨2, ![M, N]⟩ .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 q k := funext fun a => Fin.ext (by
    match a with
    | ⟨0, _⟩ => exact rhs_row d hln hrn hlb hrb _ _
    | ⟨1, _⟩ => exact (rhs_col d hrc _ _).trans hk)
  rw [el, er]

end Idealize.ShloMosaic.DotT

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.PayloadAt.lean ====
/-
  What the kernel body's arithmetic computes, read at one entry (r, q) of the 1024 x 1024 tile.

  The accumulator update adds to the old entry the tile's contribution: the even-position inputs of row r against the
  dequantized low codes of weight row q, plus the odd-position inputs against the dequantized high codes, each a sum
  over the 256 bytes of the tile. The weight tile is made from the packed words (masked to a byte, which leaves both
  codes as they are), the zero points and the scales of its 1024 rows; entry (r, q) reads row q of each and nothing
  else. The final store adds the bias of column q. The reset writes zero.
-/
import proofs.«423594_j1623497638587_3_alg».proof.Proof.Gen.KernelIdeal.Skeleton
import proofs.«423594_j1623497638587_3_alg».proof.Proof.Spec
import proofs.«423594_j1623497638587_3_alg».proof.Proof.LibDotT
import proofs.«423594_j1623497638587_3_alg».proof.Proof.LibColumn

noncomputable section

namespace Cert.KernelIdeal.PayloadAt

open Cert.KernelIdeal Cert.KernelIdeal.Gen Idealize.ShloMosaic Idealize.ShloMosaic.ValueIdx Cert.Spec

/-! ## The words of a weight byte -/

/-- An arithmetic shift right by 4 of a 32-bit lane is the in-range shift: 4 is below the lane width. -/
private theorem shrsi_four (x : BitVec 32) : IntOp.shrsi .vector x 4#32 = x.sshiftRight' 4#32 :=
  if_pos (by decide)

/-! ## The weight tile

Entry (q, i) of the low (high) tile is the low (high) code of byte i of weight row q, dequantized with row q's zero
point and scale. -/

/-- The dequantized low codes of the tile. -/
private def wLo (v3 : Vec Ideal S1024x256 .i32) (v14 : Vec Ideal S1024 .i32) (v17 : Vec Ideal S1024 .f32) :
    FVec Ideal S1024x256 .bf16 :=
  truncf (F := Ideal) .bf16
    (mulf (F := Ideal)
      (subf (F := Ideal)
        (sitofp (F := Ideal) .f32 (andi (andi v3 (broadcast S1024x256 255#32)) (broadcast S1024x256 15#32)))
        (broadcastTo S1024x256 (shapeCast S1024x1 (sitofp (F := Ideal) .f32 v14) shapeCasts_S1024_S1024x1)
          broadcasts_S1024x1_S1024x256))
      (broadcastTo S1024x256 (shapeCast S1024x1 v17 shapeCasts_S1024_S1024x1) broadcasts_S1024x1_S1024x256))
    bitsLt_bf16_f32

/-- The dequantized high codes of the tile. -/
private def wHi (v3 : Vec Ideal S1024x256 .i32) (v14 : Vec Ideal S1024 .i32) (v17 : Vec Ideal S1024 .f32) :
    FVec Ideal S1024x256 .bf16 :=
  truncf (F := Ideal) .bf16
    (mulf (F := Ideal)
      (subf (F := Ideal)
        (sitofp (F := Ideal) .f32
          (andi (shrsi (andi v3 (broadcast S1024x256 255#32)) (broadcast S1024x256 4#32)) (broadcast S1024x256 15#32)))
        (broadcastTo S1024x256 (shapeCast S1024x1 (sitofp (F := Ideal) .f32 v14) shapeCasts_S1024_S1024x1)
          broadcasts_S1024x1_S1024x256))
      (broadcastTo S1024x256 (shapeCast S1024x1 v17 shapeCasts_S1024_S1024x1) broadcasts_S1024x1_S1024x256))
    bitsLt_bf16_f32

/-- The zero-point column, spread over the 256 bytes, read at (q, i): row q's zero point as a real. -/
private theorem zcol_at (v14 : Vec Ideal S1024 .i32) (q : Fin 1024) (i : Fin 256) :
    broadcastTo S1024x256 (shapeCast S1024x1 (sitofp (F := Ideal) .f32 v14) shapeCasts_S1024_S1024x1)
        broadcasts_S1024x1_S1024x256 (ix2 q i)
      = (((v14 (ix1 q)).toInt : ℝ) : EReal) :=
  Column.keepdims_apply (sitofp (F := Ideal) .f32 v14) shapeCasts_S1024_S1024x1 broadcasts_S1024x1_S1024x256 q i

/-- The scale column, spread over the 256 bytes, read at (q, i): row q's scale. -/
private theorem scol_at (v17 : Vec Ideal S1024 .f32) (q : Fin 1024) (i : Fin 256) :
    broadcastTo S1024x256 (shapeCast S1024x1 v17 shapeCasts_S1024_S1024x1) broadcasts_S1024x1_S1024x256 (ix2 q i)
      = v17 (ix1 q) :=
  Column.keepdims_apply v17 shapeCasts_S1024_S1024x1 broadcasts_S1024x1_S1024x256 q i

/-- The low code of byte (q, i) as a real: the byte mask leaves bits 0-3 as they are. -/
private theorem lo_code_at (v3 : Vec Ideal S1024x256 .i32) (q : Fin 1024) (i : Fin 256) :
    sitofp (F := Ideal) .f32 (andi (andi v3 (broadcast S1024x256 255#32)) (broadcast S1024x256 15#32)) (ix2 q i)
      = (((nibLo (v3 (ix2 q i))).toInt : ℝ) : EReal) :=
  congrArg (fun b : BitVec 32 => ((b.toInt : ℝ) : EReal)) (nibLo_byte (v3 (ix2 q i)))

/-- The high code of byte (q, i) as a real: the byte mask leaves bits 4-7 as they are. -/
private theorem hi_code_at (v3 : Vec Ideal S1024x256 .i32) (q : Fin 1024) (i : Fin 256) :
    sitofp (F := Ideal) .f32
        (andi (shrsi (andi v3 (broadcast S1024x256 255#32)) (broadcast S1024x256 4#32)) (broadcast S1024x256 15#32))
        (ix2 q i)
      = (((nibHi (v3 (ix2 q i))).toInt : ℝ) : EReal) :=
  (congrArg (fun b : BitVec 32 => (((b &&& 15#32).toInt : ℝ) : EReal)) (shrsi_four (v3 (ix2 q i) &&& 255#32))).trans
    (congrArg (fun b : BitVec 32 => ((b.toInt : ℝ) : EReal)) (nibHi_byte (v3 (ix2 q i))))

/-- Entry (q, i) of the low tile. -/
private theorem wLo_at (v3 : Vec Ideal S1024x256 .i32) (v14 : Vec Ideal S1024 .i32) (v17 : Vec Ideal S1024 .f32)
    (q : Fin 1024) (i : Fin 256) :
    wLo v3 v14 v17 (ix2 q i) = deq (nibLo (v3 (ix2 q i))) (v14 (ix1 q)) (v17 (ix1 q)) :=
  congrArg₂ (· * ·) (congrArg₂ (· - ·) (lo_code_at v3 q i) (zcol_at v14 q i)) (scol_at v17 q i)

/-- Entry (q, i) of the high tile. -/
private theorem wHi_at (v3 : Vec Ideal S1024x256 .i32) (v14 : Vec Ideal S1024 .i32) (v17 : Vec Ideal S1024 .f32)
    (q : Fin 1024) (i : Fin 256) :
    wHi v3 v14 v17 (ix2 q i) = deq (nibHi (v3 (ix2 q i))) (v14 (ix1 q)) (v17 (ix1 q)) :=
  congrArg₂ (· * ·) (congrArg₂ (· - ·) (hi_code_at v3 q i) (zcol_at v14 q i)) (scol_at v17 q i)

/-! ## The two products -/

/-- A product of a [1024, 256] tile against the transpose of a [1024, 256] tile, into zero, at entry (p, q): the sum
    over the 256 bytes of row p of the left tile times row q of the right tile. -/
private theorem matmul_at (l r : FVec Ideal S1024x256 .bf16) (p q : Fin 1024) :
    matmul dot_S1024x256_S1024x256_S1024x1024_1_1_0_0_n_n none l r
        (constant (F := Ideal) S1024x1024 .f32 0x00000000#32) (ix2 p q)
      = ∑ k : Fin 256, l (ix2 p k) * r (ix2 q k) :=
  DotT.matmul_zero_apply dot_S1024x256_S1024x256_S1024x1024_1_1_0_0_n_n rfl rfl rfl rfl rfl rfl rfl rfl none l r p q

/-- The update as the accumulator plus the two products of the inputs against the two weight tiles. -/
private theorem pay4_eq (v3 : Vec Ideal S1024x256 .i32) (v14 : Vec Ideal S1024 .i32) (v17 : Vec Ideal S1024 .f32)
    (v29 v31 : Vec Ideal S1024x256 .bf16) (v35 : Vec Ideal S1024x1024 .f32) :
    k0_pay4 (F := Ideal) v3 v14 v17 v29 v31 v35
      = addf (F := Ideal) v35
          (addf (F := Ideal)
            (matmul (φ₁ := .bf16) dot_S1024x256_S1024x256_S1024x1024_1_1_0_0_n_n none
              (shapeCast S1024x256 v29 shapeCasts_S1024x256_S1024x256) (wLo v3 v14 v17)
              (constant (F := Ideal) S1024x1024 .f32 0x00000000#32))
            (matmul (φ₁ := .bf16) dot_S1024x256_S1024x256_S1024x1024_1_1_0_0_n_n none
              (shapeCast S1024x256 v31 shapeCasts_S1024x256_S1024x256) (wHi v3 v14 v17)
              (constant (F := Ideal) S1024x1024 .f32 0x00000000#32))) :=
  rfl

/-- The accumulator update at entry (r, q). -/
theorem pay4_at (v3 : Vec Ideal S1024x256 .i32) (v14 : Vec Ideal S1024 .i32) (v17 : Vec Ideal S1024 .f32)
    (v29 v31 : Vec Ideal S1024x256 .bf16) (v35 : Vec Ideal S1024x1024 .f32) (r q : Fin 1024) :
    k0_pay4 (F := Ideal) v3 v14 v17 v29 v31 v35 (ix2 r q)
      = v35 (ix2 r q)
        + ((∑ i : Fin 256, v29 (ix2 r i) * deq (nibLo (v3 (ix2 q i))) (v14 (ix1 q)) (v17 (ix1 q)))
          + (∑ i : Fin 256, v31 (ix2 r i) * deq (nibHi (v3 (ix2 q i))) (v14 (ix1 q)) (v17 (ix1 q)))) := by
  refine (congrFun (pay4_eq v3 v14 v17 v29 v31 v35) (ix2 r q)).trans ?_
  refine (addf_apply _ _ _).trans ?_
  refine congrArg (v35 (ix2 r q) + ·) ?_
  refine (addf_apply _ _ _).trans ?_
  refine congrArg₂ (· + ·) ?_ ?_
  · refine (matmul_at _ _ r q).trans ?_
    refine Finset.sum_congr rfl fun i _ => ?_
    exact congrArg₂ (· * ·) (congrFun (shapeCast_self v29 _) (ix2 r i)) (wLo_at v3 v14 v17 q i)
  · refine (matmul_at _ _ r q).trans ?_
    refine Finset.sum_congr rfl fun i _ => ?_
    exact congrArg₂ (· * ·) (congrFun (shapeCast_self v31 _) (ix2 r i)) (wHi_at v3 v14 v17 q i)

/-- The value stored back into the accumulator is the updated value itself (a cast to its own shape). -/
theorem pay1_eq {F : FTy → Type} [FloatOps F] (v37 : FVec F S1024x1024 .f32) : k0_pay1 (F := F) v37 = v37 :=
  shapeCast_self v37 _

/-- The final store at entry (r, q): the accumulator's entry plus the bias of column q. -/
theorem pay2_at (v44 : Vec Ideal S1024x1024 .f32) (v45 : Vec Ideal S1x1024 .f32) (r q : Fin 1024) :
    k0_pay2 (F := Ideal) v44 v45 (ix2 r q) = v44 (ix2 r q) + v45 (ix2 (0 : Fin 1) q) := by
  unfold k0_pay2
  refine (addf_apply _ _ _).trans ?_
  refine congrArg (v44 (ix2 r q) + ·) ?_
  refine broadcastTo_apply v45 _ (ix2 r q) (ix2 (0 : Fin 1) q) fun a => ?_
  match a with
  | ⟨0, _⟩ => rfl
  | ⟨1, _⟩ => rfl

/-- The reset value is zero everywhere. -/
theorem pay3_at (r q : Fin 1024) : k0_pay3 (F := Ideal) (ix2 r q) = (0 : EReal) := by
  unfold k0_pay3
  refine (congrFun (shapeCast_self _ _) (ix2 r q)).trans ?_
  exact Ideal.ofBits_zero_f32

end Cert.KernelIdeal.PayloadAt

end
-- ==== Proof.BlockRead.lean ====
/-
  The grid's points and the windows' blocks, read at an index.

  The grid has 8 x 11 x 8 points; point t has row-tile t / 88, column-tile (t / 8) % 11 and depth-step t % 8. At that
  point the input windows hold: rows 1024 * (t / 88) .. of the even- and odd-position inputs, columns 256 * (t % 8) ..;
  rows 1024 * ((t / 8) % 11) .. of the packed weights, same columns; and the same 1024 channels of the scales, the zero
  points and the bias. The channels number 11008 = 10 * 1024 + 768, so the last column-tile overhangs the arrays: its
  transfers move only the first 768 channels, and what a staging buffer holds past them is not named. Every lemma about
  a channel-indexed window therefore carries the hypothesis that the channel lies inside the array.
  The result window's block at a point is rows 1024 * (t / 88) .., channels 1024 * ((t / 8) % 11) .., cut at channel
  11008; it is written back at the points whose depth-step is 7, and those blocks together cover the result array.
-/
import proofs.«423594_j1623497638587_3_alg».proof.Proof.Gen.KernelIdeal.Frame
import Idealize.ShloMosaic.Lib.Pipeline.Value
import Idealize.ShloMosaic.Lib.ValueIdx

set_option maxRecDepth 16384

noncomputable section

namespace Cert.KernelIdeal.BlockRead

open Cert.KernelIdeal Cert.KernelIdeal.Gen Idealize.ShloMosaic Idealize.ShloMosaic.TcCoe Idealize.ShloMosaic.ValueIdx
open Idealize.SL Idealize.SL.Sem Idealize.ShloMosaic.Rounds
open Idealize.ShloMosaic.Pipeline (Dat Cfg Window)

variable {F : FTy → Type} [FloatOps F]

variable (m : (ℓ : Loc nD τ sig) → Buf (Elt F) ℓ)

/-- A point's number is below 704. -/
theorem point_lt (t : Fin cfg0.N) : t.val < 704 := lt_of_lt_of_eq t.isLt N_0

/-- The point's coordinates: row-tile, column-tile, depth-step. -/
theorem coords_val (t : Fin cfg0.N) :
    (grid0.coords t 0).val = t.val / 88 ∧ (grid0.coords t 1).val = t.val / 8 % 11 ∧ (grid0.coords t 2).val = t.val % 8 :=
  (by decide +kernel : ∀ t : Fin grid0.N,
    (grid0.coords t 0).val = t.val / 88 ∧ (grid0.coords t 1).val = t.val / 8 % 11 ∧ (grid0.coords t 2).val = t.val % 8) t

/-- Row r of the point's row-tile, as a row of the [8192, ·] arrays. -/
def rowIx (t : Fin cfg0.N) (r : Fin 1024) : Fin 8192 := ⟨1024 * (t.val / 88) + r.val, by have := point_lt t; omega⟩
/-- Byte i of the point's depth-step, as a column of the [·, 2048] arrays. -/
def colIx (t : Fin cfg0.N) (i : Fin 256) : Fin 2048 := ⟨256 * (t.val % 8) + i.val, by omega⟩
/-- Channel q of the point's column-tile, when it lies inside the array. -/
def chanIx (t : Fin cfg0.N) (q : Fin 1024) (h : 1024 * (t.val / 8 % 11) + q.val < 11008) : Fin 11008 :=
  ⟨1024 * (t.val / 8 % 11) + q.val, h⟩

/-! ## The block indices and the cut sizes, by the point -/

/-- The inputs' windows sit at block (row-tile, depth-step). -/
private theorem idx0 : ∀ t : Fin cfg0.N, win0_0.index t 0 = t.val / 88 ∧ win0_0.index t 1 = t.val % 8 :=
  (by decide +kernel : ∀ t : Fin grid0.N, win0_0.index t 0 = t.val / 88 ∧ win0_0.index t 1 = t.val % 8)
private theorem idx1 : ∀ t : Fin cfg0.N, win0_1.index t 0 = t.val / 88 ∧ win0_1.index t 1 = t.val % 8 :=
  (by decide +kernel : ∀ t : Fin grid0.N, win0_1.index t 0 = t.val / 88 ∧ win0_1.index t 1 = t.val % 8)
/-- The packed weights' window sits at block (column-tile, depth-step). -/
private theorem idx2 : ∀ t : Fin cfg0.N, win0_2.index t 0 = t.val / 8 % 11 ∧ win0_2.index t 1 = t.val % 8 :=
  (by decide +kernel : ∀ t : Fin grid0.N, win0_2.index t 0 = t.val / 8 % 11 ∧ win0_2.index t 1 = t.val % 8)
/-- The scales', the zero points' and the bias's windows sit at block column-tile. -/
private theorem idx3 : ∀ t : Fin cfg0.N, win0_3.index t 0 = t.val / 8 % 11 :=
  (by decide +kernel : ∀ t : Fin grid0.N, win0_3.index t 0 = t.val / 8 % 11)
private theorem idx4 : ∀ t : Fin cfg0.N, win0_4.index t 0 = t.val / 8 % 11 :=
  (by decide +kernel : ∀ t : Fin grid0.N, win0_4.index t 0 = t.val / 8 % 11)
private theorem idx5 : ∀ t : Fin cfg0.N, win0_5.index t 0 = 0 ∧ win0_5.index t 1 = t.val / 8 % 11 :=
  (by decide +kernel : ∀ t : Fin grid0.N, win0_5.index t 0 = 0 ∧ win0_5.index t 1 = t.val / 8 % 11)

/-- Along the channels a transfer moves 1024 coordinates at the first ten column-tiles and 768 at the last. -/
private theorem xs2 : ∀ t : Fin cfg0.N, win0_2.xsize (grid0.coords t) 0 = (if t.val / 8 % 11 < 10 then 1024 else 768)
      ∧ win0_2.xsize (grid0.coords t) 1 = 256 :=
  (by decide +kernel : ∀ t : Fin grid0.N, win0_2.xsize (grid0.coords t) 0 = (if t.val / 8 % 11 < 10 then 1024 else 768)
      ∧ win0_2.xsize (grid0.coords t) 1 = 256)
private theorem xs3 : ∀ t : Fin cfg0.N, win0_3.xsize (grid0.coords t) 0 = (if t.val / 8 % 11 < 10 then 1024 else 768) :=
  (by decide +kernel : ∀ t : Fin grid0.N, win0_3.xsize (grid0.coords t) 0 = (if t.val / 8 % 11 < 10 then 1024 else 768))
private theorem xs4 : ∀ t : Fin cfg0.N, win0_4.xsize (grid0.coords t) 0 = (if t.val / 8 % 11 < 10 then 1024 else 768) :=
  (by decide +kernel : ∀ t : Fin grid0.N, win0_4.xsize (grid0.coords t) 0 = (if t.val / 8 % 11 < 10 then 1024 else 768))
private theorem xs5 : ∀ t : Fin cfg0.N, win0_5.xsize (grid0.coords t) 0 = 1
      ∧ win0_5.xsize (grid0.coords t) 1 = (if t.val / 8 % 11 < 10 then 1024 else 768) :=
  (by decide +kernel : ∀ t : Fin grid0.N, win0_5.xsize (grid0.coords t) 0 = 1
      ∧ win0_5.xsize (grid0.coords t) 1 = (if t.val / 8 % 11 < 10 then 1024 else 768))

/-! ## The input blocks at an index -/

/-- The even-position inputs' block (window 0, never cut). -/
theorem read0 (c : Dev nD) (t : Fin cfg0.N) (r : Fin 1024) (i : Fin 256) :
    (iblk m c 0 t : S1024x256.Idx → Elt F .bf16) (ix2 r i)
      = (V m c main_v4 : S8192x2048.Idx → Elt F .bf16) (ix2 (rowIx t r) (colIx t i)) := by
  -- element (r, i) of the block sits at block index times block size plus (r, i)
  have hi := idx0 t
  unfold iblk
  rw [View.read_apply]
  show V m c main_v4 _ = V m c main_v4 _
  congr 1
  funext a
  apply Fin.ext
  match a with
  | ⟨0, _⟩ => show win0_0.index t 0 * 1024 + 1 * r.val = 1024 * (t.val / 88) + r.val; rw [hi.1]; omega
  | ⟨1, _⟩ => show win0_0.index t 1 * 256 + 1 * i.val = 256 * (t.val % 8) + i.val; rw [hi.2]; omega

/-- The odd-position inputs' block (window 1, never cut). -/
theorem read1 (c : Dev nD) (t : Fin cfg0.N) (r : Fin 1024) (i : Fin 256) :
    (iblk m c 1 t : S1024x256.Idx → Elt F .bf16) (ix2 r i)
      = (V m c main_v6 : S8192x2048.Idx → Elt F .bf16) (ix2 (rowIx t r) (colIx t i)) := by
  -- element (r, i) of the block sits at block index times block size plus (r, i)
  have hi := idx1 t
  unfold iblk
  rw [View.read_apply]
  show V m c main_v6 _ = V m c main_v6 _
  congr 1
  funext a
  apply Fin.ext
  match a with
  | ⟨0, _⟩ => show win0_1.index t 0 * 1024 + 1 * r.val = 1024 * (t.val / 88) + r.val; rw [hi.1]; omega
  | ⟨1, _⟩ => show win0_1.index t 1 * 256 + 1 * i.val = 256 * (t.val % 8) + i.val; rw [hi.2]; omega

/-- The packed weights' staging buffer after a fetch at the point, whatever it held before (`d`), on a channel
    inside the array. -/
theorem read2 (c : Dev nD) (t : Fin cfg0.N) (d : S1024x256.Idx → Elt F .i32) (q : Fin 1024) (i : Fin 256)
    (h : 1024 * (t.val / 8 % 11) + q.val < 11008) :
    ((cfg0.win 2).fill (cfg0.grid.coords t) d (iblk m c 2 t) : S1024x256.Idx → Elt F .i32) (ix2 q i)
      = (V m c main_arg1 : S11008x2048.Idx → Elt F .i32) (ix2 (chanIx t q h) (colIx t i)) := by
  have hi := idx2 t
  have hx := xs2 t
  -- a channel inside the array is among those the transfer moves
  have hm : (cfg0.win 2).moved (cfg0.grid.coords t) (ix2 q i) = true := by
    rw [Window.moved_iff]
    intro a
    match a with
    | ⟨0, _⟩ => show q.val < win0_2.xsize (grid0.coords t) 0; rw [hx.1]; split <;> omega
    | ⟨1, _⟩ => show i.val < win0_2.xsize (grid0.coords t) 1; rw [hx.2]; exact i.isLt
  unfold Window.fill
  rw [dif_pos hm]
  unfold iblk
  rw [View.read_apply]
  show V m c main_arg1 _ = V m c main_arg1 _
  congr 1
  funext a
  apply Fin.ext
  match a with
  | ⟨0, _⟩ => show win0_2.index t 0 * 1024 + 1 * q.val = 1024 * (t.val / 8 % 11) + q.val; rw [hi.1]; omega
  | ⟨1, _⟩ => show win0_2.index t 1 * 256 + 1 * i.val = 256 * (t.val % 8) + i.val; rw [hi.2]; omega

/-- The scales' staging buffer, likewise. -/
theorem read3 (c : Dev nD) (t : Fin cfg0.N) (d : S1024.Idx → Elt F .f32) (q : Fin 1024)
    (h : 1024 * (t.val / 8 % 11) + q.val < 11008) :
    ((cfg0.win 3).fill (cfg0.grid.coords t) d (iblk m c 3 t) : S1024.Idx → Elt F .f32) (ix1 q)
      = (V m c main_arg2 : S11008.Idx → Elt F .f32) (ix1 (chanIx t q h)) := by
  have hi := idx3 t
  have hx := xs3 t
  -- a channel inside the array is among those the transfer moves
  have hm : (cfg0.win 3).moved (cfg0.grid.coords t) (ix1 q) = true := by
    rw [Window.moved_iff]
    intro a
    match a with
    | ⟨0, _⟩ => show q.val < win0_3.xsize (grid0.coords t) 0; rw [hx]; split <;> omega
  unfold Window.fill
  rw [dif_pos hm]
  unfold iblk
  rw [View.read_apply]
  show V m c main_arg2 _ = V m c main_arg2 _
  congr 1
  funext a
  apply Fin.ext
  match a with
  | ⟨0, _⟩ => show win0_3.index t 0 * 1024 + 1 * q.val = 1024 * (t.val / 8 % 11) + q.val; rw [hi]; omega

/-- The zero points' staging buffer, likewise. -/
theorem read4 (c : Dev nD) (t : Fin cfg0.N) (d : S1024.Idx → Elt F .i32) (q : Fin 1024)
    (h : 1024 * (t.val / 8 % 11) + q.val < 11008) :
    ((cfg0.win 4).fill (cfg0.grid.coords t) d (iblk m c 4 t) : S1024.Idx → Elt F .i32) (ix1 q)
      = (V m c main_arg3 : S11008.Idx → Elt F .i32) (ix1 (chanIx t q h)) := by
  have hi := idx4 t
  have hx := xs4 t
  -- a channel inside the array is among those the transfer moves
  have hm : (cfg0.win 4).moved (cfg0.grid.coords t) (ix1 q) = true := by
    rw [Window.moved_iff]
    intro a
    match a with
    | ⟨0, _⟩ => show q.val < win0_4.xsize (grid0.coords t) 0; rw [hx]; split <;> omega
  unfold Window.fill
  rw [dif_pos hm]
  unfold iblk
  rw [View.read_apply]
  show V m c main_arg3 _ = V m c main_arg3 _
  congr 1
  funext a
  apply Fin.ext
  match a with
  | ⟨0, _⟩ => show win0_4.index t 0 * 1024 + 1 * q.val = 1024 * (t.val / 8 % 11) + q.val; rw [hi]; omega

/-- The bias's staging buffer, likewise. -/
theorem read5 (c : Dev nD) (t : Fin cfg0.N) (d : S1x1024.Idx → Elt F .f32) (q : Fin 1024)
    (h : 1024 * (t.val / 8 % 11) + q.val < 11008) :
    ((cfg0.win 5).fill (cfg0.grid.coords t) d (iblk m c 5 t) : S1x1024.Idx → Elt F .f32) (ix2 (0 : Fin 1) q)
      = (V m c main_arg4 : S1x11008.Idx → Elt F .f32) (ix2 (0 : Fin 1) (chanIx t q h)) := by
  have hi := idx5 t
  have hx := xs5 t
  -- a channel inside the array is among those the transfer moves
  have hm : (cfg0.win 5).moved (cfg0.grid.coords t) (ix2 (0 : Fin 1) q) = true := by
    rw [Window.moved_iff]
    intro a
    match a with
    | ⟨0, _⟩ => show (0 : Fin 1).val < win0_5.xsize (grid0.coords t) 0; rw [hx.1]; exact (0 : Fin 1).isLt
    | ⟨1, _⟩ => show q.val < win0_5.xsize (grid0.coords t) 1; rw [hx.2]; split <;> omega
  unfold Window.fill
  rw [dif_pos hm]
  unfold iblk
  rw [View.read_apply]
  show V m c main_arg4 _ = V m c main_arg4 _
  congr 1
  funext a
  apply Fin.ext
  match a with
  | ⟨0, _⟩ => show win0_5.index t 0 * 1 + 1 * (0 : Fin 1).val = (0 : Fin 1).val; rw [hi.1]; omega
  | ⟨1, _⟩ => show win0_5.index t 1 * 1024 + 1 * q.val = 1024 * (t.val / 8 % 11) + q.val; rw [hi.2]; omega

/-! ## The cuts are a function of the block index -/

theorem clip2 (t t' : Fin cfg0.N) (h : (cfg0.win 2).index t = (cfg0.win 2).index t') :
    (cfg0.win 2).clip (cfg0.grid.coords t) = (cfg0.win 2).clip (cfg0.grid.coords t') := by
  -- the cut on an axis is computed from the block index there, the block's size and the array's extent
  funext a
  have h' : cc0_transform_2 (grid0.coords t) = cc0_transform_2 (grid0.coords t') := h
  show Pipeline.Clip.of (cc0_transform_2 (grid0.coords t) a) (S1024x256.size a) (S11008x2048.size a)
    = Pipeline.Clip.of (cc0_transform_2 (grid0.coords t') a) (S1024x256.size a) (S11008x2048.size a)
  rw [h']
theorem clip3 (t t' : Fin cfg0.N) (h : (cfg0.win 3).index t = (cfg0.win 3).index t') :
    (cfg0.win 3).clip (cfg0.grid.coords t) = (cfg0.win 3).clip (cfg0.grid.coords t') := by
  -- the cut on an axis is computed from the block index there, the block's size and the array's extent
  funext a
  have h' : cc0_transform_3 (grid0.coords t) = cc0_transform_3 (grid0.coords t') := h
  show Pipeline.Clip.of (cc0_transform_3 (grid0.coords t) a) (S1024.size a) (S11008.size a)
    = Pipeline.Clip.of (cc0_transform_3 (grid0.coords t') a) (S1024.size a) (S11008.size a)
  rw [h']
theorem clip4 (t t' : Fin cfg0.N) (h : (cfg0.win 4).index t = (cfg0.win 4).index t') :
    (cfg0.win 4).clip (cfg0.grid.coords t) = (cfg0.win 4).clip (cfg0.grid.coords t') := by
  -- the cut on an axis is computed from the block index there, the block's size and the array's extent
  funext a
  have h' : cc0_transform_4 (grid0.coords t) = cc0_transform_4 (grid0.coords t') := h
  show Pipeline.Clip.of (cc0_transform_4 (grid0.coords t) a) (S1024.size a) (S11008.size a)
    = Pipeline.Clip.of (cc0_transform_4 (grid0.coords t') a) (S1024.size a) (S11008.size a)
  rw [h']
theorem clip5 (t t' : Fin cfg0.N) (h : (cfg0.win 5).index t = (cfg0.win 5).index t') :
    (cfg0.win 5).clip (cfg0.grid.coords t) = (cfg0.win 5).clip (cfg0.grid.coords t') := by
  -- the cut on an axis is computed from the block index there, the block's size and the array's extent
  funext a
  have h' : cc0_transform_5 (grid0.coords t) = cc0_transform_5 (grid0.coords t') := h
  show Pipeline.Clip.of (cc0_transform_5 (grid0.coords t) a) (S1x1024.size a) (S1x11008.size a)
    = Pipeline.Clip.of (cc0_transform_5 (grid0.coords t') a) (S1x1024.size a) (S1x11008.size a)
  rw [h']

end Cert.KernelIdeal.BlockRead

end
-- ==== Proof.TileSpec.lean ====
/-
  The values the kernel's tiles hold, at the exact instance.

  At the point with row-tile a, column-tile b and depth-step k, on every channel of the tile that lies inside the arrays,
  the scratch tile holds after the body the running sum of the first k + 1 blocks for row 1024 a + r and channel
  1024 b + q: the old entry (zero at depth-step 0, the running sum of k blocks otherwise) plus the step's contribution,
  which reads row r of the two input tiles and row q of the weight tile, its zero point and its scale. Past the arrays'
  end (the last column-tile keeps 768 of its 1024 channels) the buffers hold values nothing names, and nothing is said.
  At depth-step 7 the stored result entry is the running sum of all eight blocks plus the channel's bias: the layer.
-/
import proofs.«423594_j1623497638587_3_alg».proof.Proof.PayloadAt
import proofs.«423594_j1623497638587_3_alg».proof.Proof.BlockRead

noncomputable section

namespace Cert.KernelIdeal.Tile

open Cert.KernelIdeal Cert.KernelIdeal.Gen Idealize.ShloMosaic Idealize.ShloMosaic.TcCoe Idealize.ShloMosaic.ValueIdx
open Idealize.SL Idealize.SL.Sem Idealize.ShloMosaic.Rounds
open Cert.Spec Cert.KernelIdeal.BlockRead Cert.KernelIdeal.PayloadAt

variable (m : (ℓ : Loc nD τ sig) → Buf (Elt Ideal) ℓ)

/-- The arrays as the region finds them: the even- and odd-position inputs, the packed weights, the scales, the
    zero points, the bias. -/
abbrev XE (c : Dev nD) : S8192x2048.Idx → EReal := V m c main_v4
abbrev XO (c : Dev nD) : S8192x2048.Idx → EReal := V m c main_v6
abbrev PW (c : Dev nD) : S11008x2048.Idx → BitVec 32 := V m c main_arg1
abbrev SC (c : Dev nD) : S11008.Idx → EReal := V m c main_arg2
abbrev ZP (c : Dev nD) : S11008.Idx → BitVec 32 := V m c main_arg3
abbrev BI (c : Dev nD) : S1x11008.Idx → EReal := V m c main_arg4

/-- The running sum of the first `n` blocks at row `row` and channel `col` (zero at positions outside the arrays). -/
def accN (c : Dev nD) (n row col : ℕ) : EReal :=
  if h : row < 8192 ∧ col < 11008 then accS (XE m c) (XO m c) (PW m c) (SC m c) (ZP m c) ⟨row, h.1⟩ ⟨col, h.2⟩ n else 0

/-- The layer at row `row` and channel `col` (zero at positions outside the arrays). -/
def outN (c : Dev nD) (row col : ℕ) : EReal :=
  if h : row < 8192 ∧ col < 11008 then G2 (XE m c) (XO m c) (PW m c) (SC m c) (ZP m c) (BI m c) ⟨row, h.1⟩ ⟨col, h.2⟩ else 0

/-- The whole result array: the layer at every row and channel. -/
def OUT (c : Dev nD) : S8192x11008.Idx → EReal := fun i => outN m c (i 0).val (i 1).val

theorem accN_zero (c : Dev nD) (row col : ℕ) : accN m c 0 row col = 0 := by
  unfold accN; split <;> rfl

/-- One more block: the running sum grows by the block's term. -/
theorem accN_succ (c : Dev nD) (t : Fin cfg0.N) (r q : Fin 1024) (h : 1024 * (t.val / 8 % 11) + q.val < 11008) :
    accN m c (t.val % 8 + 1) (1024 * (t.val / 88) + r.val) (1024 * (t.val / 8 % 11) + q.val)
      = accN m c (t.val % 8) (1024 * (t.val / 88) + r.val) (1024 * (t.val / 8 % 11) + q.val)
        + blockTerm (XE m c) (XO m c) (PW m c) (SC m c) (ZP m c) (rowIx t r) (chanIx t q h) ⟨t.val % 8, Nat.mod_lt _ (by norm_num)⟩ := by
  have hr : 1024 * (t.val / 88) + r.val < 8192 := (rowIx t r).isLt
  unfold accN
  rw [dif_pos ⟨hr, h⟩, dif_pos ⟨hr, h⟩]
  show accS _ _ _ _ _ _ _ (t.val % 8) + (if h' : t.val % 8 < 8 then _ else 0) = _
  rw [dif_pos (Nat.mod_lt _ (by norm_num))]
  rfl

/-- What the scratch tile is required to hold BEFORE point number `t` (0 ≤ t ≤ 704): nothing at a depth-step 0 (the
    body will zero it), and otherwise, on every channel inside the arrays, the running sum of the blocks so far. -/
def AccOK (c : Dev nD) (t : ℕ) (S : S1024x1024.Idx → EReal) : Prop :=
  t % 8 ≠ 0 → ∀ (r q : Fin 1024), 1024 * (t / 8 % 11) + q.val < 11008 →
    S (ix2 r q) = accN m c (t % 8) (1024 * (t / 88) + r.val) (1024 * (t / 8 % 11) + q.val)

/-- The accumulator update at a point, entry by entry on the channels inside the arrays: if the old scratch `S₀`
    holds the running sum of the blocks before this depth-step, the new one holds the running sum including it. The
    tiles are the ones the body finds: the two input blocks, and the weight, scale and zero-point buffers just
    fetched over whatever they held (`d2`, `d3`, `d4`). -/
theorem step_val (c : Dev nD) (t : Fin cfg0.N) (d2 : S1024x256.Idx → BitVec 32) (d3 : S1024.Idx → EReal)
    (d4 : S1024.Idx → BitVec 32) (S₀ : S1024x1024.Idx → EReal)
    (hS : ∀ (r q : Fin 1024), 1024 * (t.val / 8 % 11) + q.val < 11008 →
      S₀ (ix2 r q) = accN m c (t.val % 8) (1024 * (t.val / 88) + r.val) (1024 * (t.val / 8 % 11) + q.val))
    (r q : Fin 1024) (h : 1024 * (t.val / 8 % 11) + q.val < 11008) :
    k0_pay1 (F := Ideal) (k0_pay4 (F := Ideal)
        ((cfg0.win 2).fill (cfg0.grid.coords t) d2 (iblk m c 2 t) : S1024x256.Idx → BitVec 32)
        ((cfg0.win 4).fill (cfg0.grid.coords t) d4 (iblk m c 4 t) : S1024.Idx → BitVec 32)
        ((cfg0.win 3).fill (cfg0.grid.coords t) d3 (iblk m c 3 t) : S1024.Idx → EReal)
        (iblk m c 0 t : S1024x256.Idx → EReal) (iblk m c 1 t : S1024x256.Idx → EReal) S₀) (ix2 r q)
      = accN m c (t.val % 8 + 1) (1024 * (t.val / 88) + r.val) (1024 * (t.val / 8 % 11) + q.val) := by
  rw [pay1_eq, pay4_at, hS r q h, accN_succ m c t r q h]
  refine congrArg (accN m c (t.val % 8) _ _ + ·) ?_
  unfold blockTerm
  have hcol : ∀ i : Fin 256, bytePos ⟨t.val % 8, Nat.mod_lt _ (by norm_num)⟩ i = colIx t i := fun i => rfl
  refine congrArg₂ (· + ·) (Finset.sum_congr rfl fun i _ => ?_) (Finset.sum_congr rfl fun i _ => ?_)
  · rw [hcol, read0 m c t r i, read2 m c t d2 q i h, read4 m c t d4 q h, read3 m c t d3 q h]
  · rw [hcol, read1 m c t r i, read2 m c t d2 q i h, read4 m c t d4 q h, read3 m c t d3 q h]

/-- The final store at a point of depth-step 7, entry by entry on the channels inside the arrays: the scratch holding
    the running sum of all eight blocks, plus the bias buffer just fetched over whatever it held, is the layer. -/
theorem out_val (c : Dev nD) (t : Fin cfg0.N) (hk : t.val % 8 = 7) (d5 : S1x1024.Idx → EReal) (S : S1024x1024.Idx → EReal)
    (hS : ∀ (r q : Fin 1024), 1024 * (t.val / 8 % 11) + q.val < 11008 →
      S (ix2 r q) = accN m c (t.val % 8 + 1) (1024 * (t.val / 88) + r.val) (1024 * (t.val / 8 % 11) + q.val))
    (r q : Fin 1024) (h : 1024 * (t.val / 8 % 11) + q.val < 11008) :
    k0_pay2 (F := Ideal) S ((cfg0.win 5).fill (cfg0.grid.coords t) d5 (iblk m c 5 t) : S1x1024.Idx → EReal) (ix2 r q)
      = outN m c (1024 * (t.val / 88) + r.val) (1024 * (t.val / 8 % 11) + q.val) := by
  have hr : 1024 * (t.val / 88) + r.val < 8192 := (rowIx t r).isLt
  rw [pay2_at, hS r q h, read5 m c t d5 q h, hk]
  unfold accN outN
  rw [dif_pos ⟨hr, h⟩, dif_pos ⟨hr, h⟩]
  exact accS_eight_add_bias _ _ _ _ _ _ _ _

end Cert.KernelIdeal.Tile

end
-- ==== Proof.OutBlock.lean ====
/-
  The result window's blocks.

  The block of the result array at a point is rows 1024 * (t / 88) .., channels 1024 * ((t / 8) % 11) .., cut at channel
  11008 (the last column-tile keeps 768 channels). A write-back moves exactly the entries of the staging buffer whose
  channel lies inside the array. The window is written back at the points whose depth-step is 7, one per pair of a
  row-tile and a column-tile, and those 88 blocks together cover the [8192, 11008] array.
-/
import proofs.«423594_j1623497638587_3_alg».proof.Proof.BlockRead

set_option maxRecDepth 16384

noncomputable section

namespace Cert.KernelIdeal.BlockRead

open Cert.KernelIdeal Cert.KernelIdeal.Gen Idealize.ShloMosaic Idealize.ShloMosaic.TcCoe Idealize.ShloMosaic.ValueIdx
open Idealize.SL Idealize.SL.Sem Idealize.ShloMosaic.Rounds
open Idealize.ShloMosaic.Pipeline (Dat Cfg Window)

variable {F : FTy → Type} [FloatOps F]

/-! ## The result window -/

/-- The cut sizes of the result block at a point: all 1024 rows; 1024 channels, or 768 in the last column-tile. -/
private theorem xsize6 : ∀ t : Fin cfg0.N, (cfg0.win 6).xsize (cfg0.grid.coords t) 0 = 1024
    ∧ (cfg0.win 6).xsize (cfg0.grid.coords t) 1 = (if t.val / 8 % 11 < 10 then 1024 else 768) :=
  (by decide +kernel : ∀ t : Fin grid0.N, win0_6.xsize (grid0.coords t) 0 = 1024
    ∧ win0_6.xsize (grid0.coords t) 1 = (if t.val / 8 % 11 < 10 then 1024 else 768))

/-- The block index of the result window at a point: the row-tile and the column-tile. -/
private theorem index6 : ∀ t : Fin cfg0.N, (cfg0.win 6).index t 0 = t.val / 88 ∧ (cfg0.win 6).index t 1 = t.val / 8 % 11 :=
  (by decide +kernel : ∀ t : Fin grid0.N, win0_6.index t 0 = t.val / 88 ∧ win0_6.index t 1 = t.val / 8 % 11)

/-- An index of the part of the result block that the write-back moves is a row r and a channel q of the tile with the
    channel inside the array. -/
theorem moved6 (t : Fin cfg0.N) (j : ((cfg0.win 6).xblock (cfg0.grid.coords t)).Idx) :
    ∃ (r q : Fin 1024), ((cfg0.win 6).xinj (cfg0.grid.coords t) j : S1024x1024.Idx) = ix2 r q
      ∧ 1024 * (t.val / 8 % 11) + q.val < 11008 := by
  -- the coordinates of j lie below the cut sizes: 1024 rows, and 1024 or (in column-tile 10) 768 channels
  have hx := xsize6 t
  have h0 : (j 0).val < 1024 := lt_of_lt_of_eq (j 0).isLt hx.1
  have h1 : (j 1).val < (if t.val / 8 % 11 < 10 then 1024 else 768) := lt_of_lt_of_eq (j 1).isLt hx.2
  have ht := point_lt t
  -- in a column-tile below 10 the channel is below 1024 * 10 + 1024; in column-tile 10 it is below 10240 + 768
  have h1' : (j 1).val < 1024 ∧ 1024 * (t.val / 8 % 11) + (j 1).val < 11008 := by
    split at h1 <;> omega
  refine ⟨⟨(j 0).val, h0⟩, ⟨(j 1).val, h1'.1⟩, ?_, h1'.2⟩
  funext a
  match a with
  | ⟨0, _⟩ => rfl
  | ⟨1, _⟩ => rfl

/-- The result array's block at the point, read at such an index. -/
theorem read6 (t : Fin cfg0.N) (A : S8192x11008.Idx → Elt F .f32)
    (j : ((cfg0.win 6).xblock (cfg0.grid.coords t)).Idx) (r q : Fin 1024)
    (hj : ((cfg0.win 6).xinj (cfg0.grid.coords t) j : S1024x1024.Idx) = ix2 r q)
    (h : 1024 * (t.val / 8 % 11) + q.val < 11008) :
    (((cfg0.win 6).blk t).view.read (Elt F) A j : Elt F .f32) = A (ix2 (rowIx t r) (chanIx t q h)) := by
  have hi := index6 t
  have e0 : (j 0).val = r.val := congrArg (fun i : S1024x1024.Idx => (i 0).val) hj
  have e1 : (j 1).val = q.val := congrArg (fun i : S1024x1024.Idx => (i 1).val) hj
  -- the block's element j is the array's element at, per axis, block index * 1024 + the coordinate of j
  refine (View.read_apply (v := ((cfg0.win 6).blk t).view) (Val := Elt F) A j).trans ?_
  show _root_.cast _ (A ((cfg0.win 6).arr.view.emb (((cfg0.win 6).rect t).emb j))) = _
  refine (cast_eq _ _).trans (congrArg A ?_)
  funext a
  apply Fin.ext
  match a with
  | ⟨0, _⟩ =>
    show (cfg0.win 6).index t 0 * 1024 + 1 * (j 0).val = 1024 * (t.val / 88) + r.val
    rw [hi.1, e0]; omega
  | ⟨1, _⟩ =>
    show (cfg0.win 6).index t 1 * 1024 + 1 * (j 1).val = 1024 * (t.val / 8 % 11) + q.val
    rw [hi.2, e1]; omega

/-- Every entry of the result array lies in the block of a point that writes back. -/
theorem cover6 (i : S8192x11008.Idx) :
    ∃ t : Fin cfg0.N, (cfg0.win 6).flush t = true ∧ i ∈ ((cfg0.win 6).blk t).view.set := by
  obtain ⟨row, col, rfl⟩ : ∃ (row : Fin 8192) (col : Fin 11008), i = ix2 row col := ⟨i 0, i 1, eq_ix2 i⟩
  have hr := row.isLt
  have hc := col.isLt
  -- the point of row-tile row / 1024, column-tile col / 1024 and depth-step 7
  have htv : row.val / 1024 * 88 + col.val / 1024 * 8 + 7 < cfg0.N := lt_of_lt_of_eq (by omega) N_0.symm
  refine ⟨⟨row.val / 1024 * 88 + col.val / 1024 * 8 + 7, htv⟩, (flush0_6 _).mpr ?_, ?_⟩
  · show (row.val / 1024 * 88 + col.val / 1024 * 8 + 7) % 8 = 7
    omega
  · have hi := index6 ⟨row.val / 1024 * 88 + col.val / 1024 * 8 + 7, htv⟩
    have hx := xsize6 ⟨row.val / 1024 * 88 + col.val / 1024 * 8 + 7, htv⟩
    -- membership in the block is, per axis, block index * 1024 ≤ coordinate < block index * 1024 + cut size
    show ix2 row col ∈ ((View.whole main_v7).slice ((cfg0.win 6).rect ⟨row.val / 1024 * 88 + col.val / 1024 * 8 + 7, htv⟩)).set
    rw [View.set_slice_whole, Rect.mem_set_unit]
    intro a
    match a with
    | ⟨0, _⟩ =>
      show (cfg0.win 6).index ⟨row.val / 1024 * 88 + col.val / 1024 * 8 + 7, htv⟩ 0 * 1024 ≤ row.val
        ∧ row.val < (cfg0.win 6).index ⟨row.val / 1024 * 88 + col.val / 1024 * 8 + 7, htv⟩ 0 * 1024
            + (cfg0.win 6).xsize (cfg0.grid.coords ⟨row.val / 1024 * 88 + col.val / 1024 * 8 + 7, htv⟩) 0
      rw [hi.1, hx.1]
      show (row.val / 1024 * 88 + col.val / 1024 * 8 + 7) / 88 * 1024 ≤ row.val
        ∧ row.val < (row.val / 1024 * 88 + col.val / 1024 * 8 + 7) / 88 * 1024 + 1024
      omega
    | ⟨1, _⟩ =>
      show (cfg0.win 6).index ⟨row.val / 1024 * 88 + col.val / 1024 * 8 + 7, htv⟩ 1 * 1024 ≤ col.val
        ∧ col.val < (cfg0.win 6).index ⟨row.val / 1024 * 88 + col.val / 1024 * 8 + 7, htv⟩ 1 * 1024
            + (cfg0.win 6).xsize (cfg0.grid.coords ⟨row.val / 1024 * 88 + col.val / 1024 * 8 + 7, htv⟩) 1
      rw [hi.2, hx.2]
      show (row.val / 1024 * 88 + col.val / 1024 * 8 + 7) / 8 % 11 * 1024 ≤ col.val
        ∧ col.val < (row.val / 1024 * 88 + col.val / 1024 * 8 + 7) / 8 % 11 * 1024
            + (if (row.val / 1024 * 88 + col.val / 1024 * 8 + 7) / 8 % 11 < 10 then 1024 else 768)
      split <;> omega

end Cert.KernelIdeal.BlockRead

end
-- ==== Proof.TileData.lean ====
/-
  The idealized kernel's run, with what its tiles hold.

  The proof data: every window's array as the region finds it; after the body the two input tiles hold their blocks;
  the weight, scale, zero-point and bias buffers hold their blocks on the channels inside the arrays (past them a word
  nothing reads); the result tile, at the points that write it back, holds the layer at its rows and channels. Between
  points the scratch tile is carried: before a point of depth-step k > 0 it holds, on every channel inside the arrays,
  the running sum of the first k blocks; before a depth-step 0 nothing is required, since the body zeroes it.
  The body at a point: by the depth-step, one of the three cases of the body's triple; the step's arithmetic read entry
  by entry gives the next running sum, and at depth-step 7 the stored tile agrees with the layer on the part the
  write-back moves. The run then ends with the result array holding the layer everywhere, because the blocks written
  back cover it.
-/
import proofs.«423594_j1623497638587_3_alg».proof.Proof.BodyRun
import proofs.«423594_j1623497638587_3_alg».proof.Proof.TileSpec
import proofs.«423594_j1623497638587_3_alg».proof.Proof.OutBlock
import proofs.«423594_j1623497638587_3_alg».proof.Proof.Gen.KernelIdeal.Frame
import Idealize.ShloMosaic.Lib.Pipeline.FrameSuffix
import Idealize.ShloMosaic.Lib.Pipeline.Value

set_option maxRecDepth 16384

noncomputable section

namespace Cert.KernelIdeal.Tile

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Spec Cert.KernelIdeal.BlockRead Cert.KernelIdeal.PayloadAt

local notation "𝕄" => MT nD τ sig Unit (Elt Ideal) ℕ (UR sig nD τ) ℕ

variable (m : (ℓ : Loc nD τ sig) → Buf (Elt Ideal) ℓ) (ρ : Dev nD → PrngReg)

/-- The scratch tile. -/
abbrev scr : Memref sig .tc .vmem S1024x1024 .f32 := Memref.whole cc0_scratch0

/-- The invariant before point number `t`: the scratch tile at contents that are the running sum where one is
    required, and the generator register at some state. -/
def PhiT (c : Dev nD) (t : ℕ) : sProp 𝕄 :=
  iprop((∃ S : S1024x1024.Idx → EReal, ⌜AccOK m c t S⌝ ∗ owns (c : Thread nD τ) scr fullShare S) ∗ ∃ r, prngReg c r)

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => (cfg0.win ⟨2, h⟩).fill (cfg0.grid.coords t) (fun _ => Classical.arbitrary _) (iblk m c ⟨2, h⟩ t)
    | ⟨3, h⟩ => (cfg0.win ⟨3, h⟩).fill (cfg0.grid.coords t) (fun _ => Classical.arbitrary _) (iblk m c ⟨3, h⟩ t)
    | ⟨4, h⟩ => (cfg0.win ⟨4, h⟩).fill (cfg0.grid.coords t) (fun _ => Classical.arbitrary _) (iblk m c ⟨4, h⟩ t)
    | ⟨5, h⟩ => (cfg0.win ⟨5, h⟩).fill (cfg0.grid.coords t) (fun _ => Classical.arbitrary _) (iblk m c ⟨5, h⟩ t)
    | ⟨6, _⟩ => fun (j : S1024x1024.Idx) => outN m c (1024 * (t.val / 88) + (j 0).val) (1024 * (t.val / 8 % 11) + (j 1).val)
  Φ t := PhiT m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t
    = (cfg0.win 2).fill (cfg0.grid.coords t) (fun _ => Classical.arbitrary _) (iblk m c 2 t) := by dsimp only [dats]; rfl
theorem after0_3 (c : Dev nD) (t : Fin cfg0.N) : (dats m 0 c).after 3 t
    = (cfg0.win 3).fill (cfg0.grid.coords t) (fun _ => Classical.arbitrary _) (iblk m c 3 t) := by dsimp only [dats]; rfl
theorem after0_4 (c : Dev nD) (t : Fin cfg0.N) : (dats m 0 c).after 4 t
    = (cfg0.win 4).fill (cfg0.grid.coords t) (fun _ => Classical.arbitrary _) (iblk m c 4 t) := by dsimp only [dats]; rfl
theorem after0_5 (c : Dev nD) (t : Fin cfg0.N) : (dats m 0 c).after 5 t
    = (cfg0.win 5).fill (cfg0.grid.coords t) (fun _ => Classical.arbitrary _) (iblk m c 5 t) := by dsimp only [dats]; rfl
theorem after0_6 (c : Dev nD) (t : Fin cfg0.N) : (dats m 0 c).after 6 t
    = fun (j : S1024x1024.Idx) => outN m c (1024 * (t.val / 88) + (j 0).val) (1024 * (t.val / 8 % 11) + (j 1).val) := by
  dsimp only [dats]

/-! ## What the body finds in the inputs' buffers -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- A channel-indexed input's buffer holds, at every point, its block there on the part a fetch fills and whatever it
    held elsewhere: fetched at the point or not, since an unfetched point has the block index of the point before. -/
theorem before0_2 (c : Dev nD) (t : Fin cfg0.N) (d) :
    (dats m 0 c).before 2 t d = (cfg0.win 2).fill (cfg0.grid.coords t) d (iblk m c 2 t) :=
  ((dats m 0 c).before_in_eq_fetched 2 rfl (fun _ => rfl) clip2
    (fun t => by rw [after0_2, Window.cut_fill]; unfold Dat.blockOf iblk; rw [A_eq]) t d).trans
    (by unfold Dat.fetched Dat.blockOf iblk; rw [A_eq])
theorem before0_3 (c : Dev nD) (t : Fin cfg0.N) (d) :
    (dats m 0 c).before 3 t d = (cfg0.win 3).fill (cfg0.grid.coords t) d (iblk m c 3 t) :=
  ((dats m 0 c).before_in_eq_fetched 3 rfl (fun _ => rfl) clip3
    (fun t => by rw [after0_3, Window.cut_fill]; unfold Dat.blockOf iblk; rw [A_eq]) t d).trans
    (by unfold Dat.fetched Dat.blockOf iblk; rw [A_eq])
theorem before0_4 (c : Dev nD) (t : Fin cfg0.N) (d) :
    (dats m 0 c).before 4 t d = (cfg0.win 4).fill (cfg0.grid.coords t) d (iblk m c 4 t) :=
  ((dats m 0 c).before_in_eq_fetched 4 rfl (fun _ => rfl) clip4
    (fun t => by rw [after0_4, Window.cut_fill]; unfold Dat.blockOf iblk; rw [A_eq]) t d).trans
    (by unfold Dat.fetched Dat.blockOf iblk; rw [A_eq])
theorem before0_5 (c : Dev nD) (t : Fin cfg0.N) (d) :
    (dats m 0 c).before 5 t d = (cfg0.win 5).fill (cfg0.grid.coords t) d (iblk m c 5 t) :=
  ((dats m 0 c).before_in_eq_fetched 5 rfl (fun _ => rfl) clip5
    (fun t => by rw [after0_5, Window.cut_fill]; unfold Dat.blockOf iblk; rw [A_eq]) t d).trans
    (by unfold Dat.fetched Dat.blockOf iblk; rw [A_eq])

/-! ## Where the result window is idle -/

/-- The result window is idle exactly at the points whose depth-step is not 7. -/
theorem idle6 : ∀ t : Fin cfg0.N, cfg0.idle 6 (grid0.coords t) = true ↔ t.val % 8 ≠ 7 :=
  (by decide +kernel : ∀ t : Fin grid0.N, cfg0.idle 6 (grid0.coords t) = true ↔ t.val % 8 ≠ 7)

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t ∗ (dats m 0 c).leaves 5 t ∗ (dats m 0 c).leaves 6 t)

theorem leaves0 (c : Dev nD) (t : Fin cfg0.N) :
    (dats m 0 c).leaves 0 t = owns (c : Thread nD τ) (st0_0 t) fullShare (iblk m c 0 t) := by
  rw [← after0_0]
theorem leaves1 (c : Dev nD) (t : Fin cfg0.N) :
    (dats m 0 c).leaves 1 t = owns (c : Thread nD τ) (st0_1 t) fullShare (iblk m c 1 t) := by
  rw [← after0_1]
theorem leaves2 (c : Dev nD) (t : Fin cfg0.N) :
    (dats m 0 c).leaves 2 t = iprop(∃ d, owns (c : Thread nD τ) (st0_2 t) fullShare ((cfg0.win 2).fill (cfg0.grid.coords t) d (iblk m c 2 t))) := by
  have e : (cfg0.win 2).cut (cfg0.grid.coords t) ((dats m 0 c).after 2 t) = iblk m c 2 t := by rw [after0_2, Window.cut_fill]
  rw [← e]
theorem leaves3 (c : Dev nD) (t : Fin cfg0.N) :
    (dats m 0 c).leaves 3 t = iprop(∃ d, owns (c : Thread nD τ) (st0_3 t) fullShare ((cfg0.win 3).fill (cfg0.grid.coords t) d (iblk m c 3 t))) := by
  have e : (cfg0.win 3).cut (cfg0.grid.coords t) ((dats m 0 c).after 3 t) = iblk m c 3 t := by rw [after0_3, Window.cut_fill]
  rw [← e]
theorem leaves4 (c : Dev nD) (t : Fin cfg0.N) :
    (dats m 0 c).leaves 4 t = iprop(∃ d, owns (c : Thread nD τ) (st0_4 t) fullShare ((cfg0.win 4).fill (cfg0.grid.coords t) d (iblk m c 4 t))) := by
  have e : (cfg0.win 4).cut (cfg0.grid.coords t) ((dats m 0 c).after 4 t) = iblk m c 4 t := by rw [after0_4, Window.cut_fill]
  rw [← e]
theorem leaves5 (c : Dev nD) (t : Fin cfg0.N) :
    (dats m 0 c).leaves 5 t = iprop(∃ d, owns (c : Thread nD τ) (st0_5 t) fullShare ((cfg0.win 5).fill (cfg0.grid.coords t) d (iblk m c 5 t))) := by
  have e : (cfg0.win 5).cut (cfg0.grid.coords t) ((dats m 0 c).after 5 t) = iblk m c 5 t := by rw [after0_5, Window.cut_fill]
  rw [← e]

/-- At a point that does not write the result back, the result tile is handed back as found. -/
theorem leaves6_idle (c : Dev nD) (t : Fin cfg0.N) (h : t.val % 8 ≠ 7) :
    (dats m 0 c).leaves 6 t = iprop(∃ d, owns (c : Thread nD τ) (st0_6 t) fullShare ((dats m 0 c).before 6 t d)) :=
  (dats m 0 c).leaves_idle 6 t ((idle6 t).mpr h) (by
    have := (flush0_6 t).not.mpr h
    exact Bool.not_eq_true _ |>.mp this)

/-- At a point of depth-step 7 it is stated on the part the write-back moves. -/
theorem leaves6_last (c : Dev nD) (t : Fin cfg0.N) (h : t.val % 8 = 7) :
    (dats m 0 c).leaves 6 t = iprop(∃ d, owns (c : Thread nD τ) (st0_6 t) fullShare
      ((cfg0.win 6).fill (cfg0.grid.coords t) d ((cfg0.win 6).cut (cfg0.grid.coords t) ((dats m 0 c).after 6 t)))) := by
  have hi : cfg0.idle 6 (grid0.coords t) = false := by
    have := (idle6 t).not.mpr (not_not.mpr h)
    exact Bool.not_eq_true _ |>.mp this
  unfold Dat.leaves; rw [hi]

/-- The scratch after a depth-step below 7 is what the next point requires. -/
theorem accOK_next (c : Dev nD) (t : Fin cfg0.N) (hk : t.val % 8 ≠ 7) (S' : S1024x1024.Idx → EReal)
    (hS' : ∀ (r q : Fin 1024), 1024 * (t.val / 8 % 11) + q.val < 11008 →
      S' (ix2 r q) = accN m c (t.val % 8 + 1) (1024 * (t.val / 88) + r.val) (1024 * (t.val / 8 % 11) + q.val)) :
    AccOK m c (t.val + 1) S' := by
  intro _ r q hq
  have e1 : (t.val + 1) % 8 = t.val % 8 + 1 := by omega
  have e2 : (t.val + 1) / 88 = t.val / 88 := by omega
  have e3 : (t.val + 1) / 8 % 11 = t.val / 8 % 11 := by omega
  rw [e1, e2, e3]; rw [e3] at hq
  exact hS' r q hq

/-- After a depth-step 7 nothing is required of the scratch. -/
theorem accOK_wrap (c : Dev nD) (t : Fin cfg0.N) (hk : t.val % 8 = 7) (S' : S1024x1024.Idx → EReal) :
    AccOK m c (t.val + 1) S' := fun h => absurd (by omega) h

/-- The stored result tile agrees with the layer on the part the write-back moves. -/
theorem cut_out (c : Dev nD) (t : Fin cfg0.N) (X : S1024x1024.Idx → EReal)
    (hX : ∀ (r q : Fin 1024), 1024 * (t.val / 8 % 11) + q.val < 11008 →
      X (ix2 r q) = outN m c (1024 * (t.val / 88) + r.val) (1024 * (t.val / 8 % 11) + q.val)) :
    (cfg0.win 6).cut (cfg0.grid.coords t) X = (cfg0.win 6).cut (cfg0.grid.coords t) ((dats m 0 c).after 6 t) := by
  funext j
  obtain ⟨r, q, hj, hq⟩ := moved6 t j
  show X ((cfg0.win 6).xinj (cfg0.grid.coords t) j) = (dats m 0 c).after 6 t ((cfg0.win 6).xinj (cfg0.grid.coords t) j)
  rw [after0_6, hj, hX r q hq]

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [leaves0, leaves1, leaves2, leaves3, leaves4, leaves5]
  rw [show (dats m 0 c).Φ t.castSucc = PhiT m c t.val from rfl, show (dats m 0 c).Φ t.succ = PhiT m c (t.val + 1) from rfl,
    show (dats m 0 c).owesAt () t.succ = (dats m 0 c).owesAt () t.castSucc from rfl]
  unfold PhiT
  iintro ⟨⟨⟨%S, %hS, HS⟩, Hr⟩, Ho, ⟨%d0, H0⟩, ⟨%d1, H1⟩, ⟨%d2, H2⟩, ⟨%d3, H3⟩, ⟨%d4, H4⟩, ⟨%d5, H5⟩, ⟨%d6, H6⟩⟩
  by_cases h0 : t.val % 8 = 0
  · -- depth-step 0: the scratch is zeroed first
    have h7 : t.val % 8 ≠ 7 := by omega
    rw [leaves6_idle m c t h7]
    iapply ((run_first (F := Ideal) c (grid0.coords t) _ _ _ _ _ _ _ _ _ _ _ _ _ _ _ _ ((hcondReset t).mpr h0) (fun h => h7 ((hcondLast t).mp h))
      (iblk m c 0 t) (iblk m c 1 t) ((cfg0.win 2).fill (cfg0.grid.coords t) d2 (iblk m c 2 t))
      ((cfg0.win 3).fill (cfg0.grid.coords t) d3 (iblk m c 3 t)) ((cfg0.win 4).fill (cfg0.grid.coords t) d4 (iblk m c 4 t))
      ((cfg0.win 5).fill (cfg0.grid.coords t) d5 (iblk m c 5 t)) ((dats m 0 c).before 6 t d6) S) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hr]
    · isplitl [HS]
      · iexists _; isplitr; swap; · iexact HS
        ipureintro
        exact accOK_next m c t h7 _ (step_val m c t d2 d3 d4 _ (fun r q _ => by rw [pay3_at, h0, accN_zero]))
      · iexact Hr
    isplitl [Ho]; · iexact Ho
    isplitl [H0]; · iexact H0
    isplitl [H1]; · iexact H1
    isplitl [H2]; · iexists d2; iexact H2
    isplitl [H3]; · iexists d3; iexact H3
    isplitl [H4]; · iexists d4; iexact H4
    isplitl [H5]; · iexists d5; iexact H5
    iexists d6; iexact H6
  · by_cases h7 : t.val % 8 = 7
    · -- depth-step 7: the result tile is stored
      rw [leaves6_last m c t h7]
      iapply ((run_last (F := Ideal) c (grid0.coords t) _ _ _ _ _ _ _ _ _ _ _ _ _ _ _ _ (fun h => h0 ((hcondReset t).mp h)) ((hcondLast t).mpr h7)
        (iblk m c 0 t) (iblk m c 1 t) ((cfg0.win 2).fill (cfg0.grid.coords t) d2 (iblk m c 2 t))
        ((cfg0.win 3).fill (cfg0.grid.coords t) d3 (iblk m c 3 t)) ((cfg0.win 4).fill (cfg0.grid.coords t) d4 (iblk m c 4 t))
        ((cfg0.win 5).fill (cfg0.grid.coords t) d5 (iblk m c 5 t)) ((dats m 0 c).before 6 t d6) S) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hr]
      · isplitl [HS]
        · iexists _; isplitr; swap; · iexact HS
          ipureintro
          exact accOK_wrap m c t h7 _
        · iexact Hr
      isplitl [Ho]; · iexact Ho
      isplitl [H0]; · iexact H0
      isplitl [H1]; · iexact H1
      isplitl [H2]; · iexists d2; iexact H2
      isplitl [H3]; · iexists d3; iexact H3
      isplitl [H4]; · iexists d4; iexact H4
      isplitl [H5]; · iexists d5; iexact H5
      iexists _
      rw [(cfg0.win 6).fill_congr_cut (cfg0.grid.coords t) (cut_out m c t _ (out_val m c t h7 d5 _
        (step_val m c t d2 d3 d4 S (hS h0))))]
      iexact H6
    · -- a middle depth-step
      rw [leaves6_idle m c t h7]
      iapply ((run_middle (F := Ideal) c (grid0.coords t) _ _ _ _ _ _ _ _ _ _ _ _ _ _ _ _ (fun h => h0 ((hcondReset t).mp h)) (fun h => h7 ((hcondLast t).mp h))
        (iblk m c 0 t) (iblk m c 1 t) ((cfg0.win 2).fill (cfg0.grid.coords t) d2 (iblk m c 2 t))
        ((cfg0.win 3).fill (cfg0.grid.coords t) d3 (iblk m c 3 t)) ((cfg0.win 4).fill (cfg0.grid.coords t) d4 (iblk m c 4 t))
        ((cfg0.win 5).fill (cfg0.grid.coords t) d5 (iblk m c 5 t)) ((dats m 0 c).before 6 t d6) S) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hr]
      · isplitl [HS]
        · iexists _; isplitr; swap; · iexact HS
          ipureintro
          exact accOK_next m c t h7 _ (step_val m c t d2 d3 d4 S (hS h0))
        · iexact Hr
      isplitl [Ho]; · iexact Ho
      isplitl [H0]; · iexact H0
      isplitl [H1]; · iexact H1
      isplitl [H2]; · iexists d2; iexact H2
      isplitl [H3]; · iexists d3; iexact H3
      isplitl [H4]; · iexists d4; iexact H4
      isplitl [H5]; · iexists d5; iexact H5
      iexists d6; iexact H6

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

/-- At the region's entry the scratch is at some contents and nothing is required of it; at its exit the requirement
    is dropped. -/
theorem phi_in (c : Dev nD) : Pipeline.ΦA spec0 c ⊢ ((dats m 0 c).Φ 0 : sProp 𝕄) := by
  unfold Pipeline.ΦA
  rw [scopedRest0_eq]
  show _ ⊢ PhiT m c 0
  unfold PhiT
  simp only [owns_whole_eq]
  iintro ⟨⟨%f, Hs⟩, Hr⟩
  isplitl [Hs]
  · iexists f; isplitr
    · ipureintro; exact fun h => absurd rfl h
    · iexists f; isplitr; · ipureintro; rfl
      iexact Hs
  · iexact Hr

theorem phi_out (c : Dev nD) : ((dats m 0 c).Φ (Fin.last cfg0.N) : sProp 𝕄) ⊢ Pipeline.ΦA spec0 c := by
  unfold Pipeline.ΦA
  rw [scopedRest0_eq]
  show PhiT m c _ ⊢ _
  unfold PhiT
  simp only [owns_whole_eq]
  iintro ⟨⟨%S, -, %f, -, Hs⟩, Hr⟩
  isplitl [Hs]
  · iexists f; iexact Hs
  · iexact Hr

set_option backward.isDefEq.respectTransparency.types false in
/-- Every weakly fair execution of the idealized program terminates without a fault; each array of the pipeline ends at
    what the proof data computes, every other buffer at what the closing host line makes of it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hin := phi_in m) (hout := phi_out m)

/-! ## The result array -/

/-- After the run the result array holds the layer at every row and channel: each block written back is the layer's
    block, and the blocks written back cover the array. -/
theorem final6 (c : Dev nD) : ((dats m 0 c).arrAt 6 cfg0.N : S8192x11008.Idx → EReal) = OUT m c :=
  (dats m 0 c).arrAt_eq_of_cover 6 (OUT m c)
    (fun t _ => by
      funext j
      obtain ⟨r, q, hj, hq⟩ := moved6 t j
      show (dats m 0 c).after 6 t ((cfg0.win 6).xinj (cfg0.grid.coords t) j) = _
      rw [after0_6, hj, read6 (F := Ideal) t (OUT m c) j r q hj hq]
      rfl)
    cover6

end Cert.KernelIdeal.Tile

end
-- ==== Proof.HostSide.lean ====
/-
  The host operations around the kernel's region, read at an index.

  Before the region the input x [4, 2048, 4096] is flattened to [8192, 4096], its row split into 2048 pairs, the
  format changed (the identity on exact values) and the two members of every pair taken apart: the even-position
  array holds x (b, t, 2 j) at (b * 2048 + t, j) and the odd-position array x (b, t, 2 j + 1). After the region the
  [8192, 11008] result is unflattened to [4, 2048, 11008]: entry (b, t, o) is the region's entry (b * 2048 + t, o).
-/
import proofs.«423594_j1623497638587_3_alg».proof.Proof.Gen.KernelIdeal.Frame
import proofs.«423594_j1623497638587_3_alg».proof.Proof.Spec
import Idealize.ShloMosaic.Lib.Pipeline.Value

noncomputable section

namespace Cert.KernelIdeal.HostSide

open Cert.KernelIdeal Cert.KernelIdeal.Gen Idealize.ShloMosaic Idealize.ShloMosaic.TcCoe Idealize.ShloMosaic.ValueIdx
open Idealize.SL Idealize.SL.Sem Idealize.ShloMosaic.Rounds Cert.Spec
open Idealize.ShloMosaic.Pipeline (Dat)

variable (m : (ℓ : Loc nD τ sig) → Buf (Elt Ideal) ℓ)

/-- The even-position array the region finds is the host operations before the region applied to the input as
    launched: flatten, split each row into pairs, change the format, take member 0 of every pair, drop the unit axis. -/
private theorem V_even_term (c : Dev nD) :
    (V m c main_v4 : S8192x2048.Idx → EReal)
      = shapeCast S8192x2048
          (extractStridedSlice S8192x2048x1 ![0, 0, 0]
            (truncf (F := Ideal) .bf16
              (shapeCast S8192x2048x2
                (shapeCast S8192x4096 (m ((c : Thread nD τ).loc main_arg0) : S4x2048x4096.Idx → EReal)
                  shapeCasts_S4x2048x4096_S8192x4096)
                shapeCasts_S8192x4096_S8192x2048x2)
              bitsLt_bf16_f32)
            slices_S8192x2048x2_S8192x2048x1_0_0_0)
          shapeCasts_S8192x2048x1_S8192x2048 := by
  show StableHlo.after hostOps0 (fun b => m (c, b)) (Proc.devRef .tc main_v4) = _
  after_results
  rfl

/-- The odd-position array likewise, with member 1 of every pair. -/
private theorem V_odd_term (c : Dev nD) :
    (V m c main_v6 : S8192x2048.Idx → EReal)
      = shapeCast S8192x2048
          (extractStridedSlice S8192x2048x1 ![0, 0, 1]
            (truncf (F := Ideal) .bf16
              (shapeCast S8192x2048x2
                (shapeCast S8192x4096 (m ((c : Thread nD τ).loc main_arg0) : S4x2048x4096.Idx → EReal)
                  shapeCasts_S4x2048x4096_S8192x4096)
                shapeCasts_S8192x4096_S8192x2048x2)
              bitsLt_bf16_f32)
            slices_S8192x2048x2_S8192x2048x1_0_0_1)
          shapeCasts_S8192x2048x1_S8192x2048 := by
  show StableHlo.after hostOps0 (fun b => m (c, b)) (Proc.devRef .tc main_v6) = _
  after_results
  rfl

/-- The de-interleaving chain read at an index. With x flattened to [8192, 4096], its rows split into 2048 pairs,
    member o of every pair taken and the unit axis dropped, entry (b * 2048 + t, j) is x (b, t, 2 j + o): every
    reshape keeps the row-major position, (b * 2048 + t) * 4096 + (2 j + o) = ((b * 2048 + t) * 2048 + j) * 2 + o,
    and the format change is the identity on exact values. -/
private theorem deinterleave_apply (x : S4x2048x4096.Idx → EReal) (o : Nat) (ho : o < 2)
    (hs : S8192x2048x2.Slices ![0, 0, o] S8192x2048x1)
    (bi : Fin 4) (ti : Fin 2048) (j : Fin 2048) (k : Fin 4096) (hk : k.val = 2 * j.val + o) :
    shapeCast S8192x2048
        (extractStridedSlice S8192x2048x1 ![0, 0, o]
          (truncf (F := Ideal) .bf16
            (shapeCast S8192x2048x2 (shapeCast S8192x4096 x shapeCasts_S4x2048x4096_S8192x4096)
              shapeCasts_S8192x4096_S8192x2048x2)
            bitsLt_bf16_f32) hs)
        shapeCasts_S8192x2048x1_S8192x2048 (ix2 (flatRow bi ti) j)
      = x (ix3 bi ti k) := by
  have hj := j.isLt
  have hkk := k.isLt
  -- the unit axis dropped: same position with a trailing 0
  refine (shapeCast_apply _ _ (ix2 (flatRow bi ti) j) (ix3 (flatRow bi ti) j (0 : Fin 1)) (by
    rw [Shape.rowMajor_val_three, Shape.rowMajor_val_two]
    show ((flatRow bi ti).val * 2048 + j.val) * 1 + 0 = (flatRow bi ti).val * 2048 + j.val
    omega)).trans ?_
  -- the slice: member o of pair j
  refine (extractStridedSlice_apply _ _ hs (ix3 (flatRow bi ti) j (0 : Fin 1))
    (ix3 (flatRow bi ti) j (⟨o, ho⟩ : Fin 2)) (fun a => by
      match a with
      | ⟨0, _⟩ => exact (Nat.zero_add _).symm
      | ⟨1, _⟩ => exact (Nat.zero_add _).symm
      | ⟨2, _⟩ => exact (Nat.add_zero _).symm)).trans ?_
  -- the format change is the identity
  refine (truncf_apply (φ := .f32) (ψ := .bf16) _ bitsLt_bf16_f32 _).trans ?_
  -- pair j, member o, is position 2 j + o of the row
  refine (shapeCast_apply _ _ (ix3 (flatRow bi ti) j (⟨o, ho⟩ : Fin 2)) (ix2 (flatRow bi ti) k) (by
    rw [Shape.rowMajor_val_two, Shape.rowMajor_val_three]
    show (flatRow bi ti).val * 4096 + k.val = ((flatRow bi ti).val * 2048 + j.val) * 2 + o
    omega)).trans ?_
  -- row b * 2048 + t of the flattened array is row (b, t)
  exact shapeCast_apply _ _ (ix2 (flatRow bi ti) k) (ix3 bi ti k) (by
    rw [Shape.rowMajor_val_three, Shape.rowMajor_val_two]
    rfl)

/-- The even-position array the region finds. -/
theorem V_even (c : Dev nD) (bi : Fin 4) (ti : Fin 2048) (j : Fin 2048) :
    (V m c main_v4 : S8192x2048.Idx → EReal) (ix2 (flatRow bi ti) j)
      = (m ((c : Thread nD τ).loc main_arg0) : S4x2048x4096.Idx → EReal) (ix3 bi ti (evenPos j)) :=
  (congrFun (V_even_term m c) (ix2 (flatRow bi ti) j)).trans
    (deinterleave_apply _ 0 (by omega) slices_S8192x2048x2_S8192x2048x1_0_0_0 bi ti j (evenPos j) rfl)

/-- The odd-position array the region finds. -/
theorem V_odd (c : Dev nD) (bi : Fin 4) (ti : Fin 2048) (j : Fin 2048) :
    (V m c main_v6 : S8192x2048.Idx → EReal) (ix2 (flatRow bi ti) j)
      = (m ((c : Thread nD τ).loc main_arg0) : S4x2048x4096.Idx → EReal) (ix3 bi ti (oddPos j)) :=
  (congrFun (V_odd_term m c) (ix2 (flatRow bi ti) j)).trans
    (deinterleave_apply _ 1 (by omega) slices_S8192x2048x2_S8192x2048x1_0_0_1 bi ti j (oddPos j) rfl)

/-- The program's result is the closing reshape of the region's result array: the operation after the region reads
    the array of the output window as the region leaves it. -/
private theorem tail_term (dats : (p : Fin 1) → (c : Dev nD) → Dat τ (Elt Ideal) Unit ℕ (UR sig nD τ) ℕ (cfgs p) c)
    (c : Dev nD) :
    (Pipeline.afterTail₀ cfgs dats 0 (V0 m) [hostOps1] c main_v8 : S4x2048x11008.Idx → EReal)
      = shapeCast S4x2048x11008 ((dats 0 c).arrAt 6 cfg0.N : S8192x11008.Idx → EReal)
          shapeCasts_S8192x11008_S4x2048x11008 := by
  unfold Pipeline.afterTail₀
  show StableHlo.after hostOps1 _ (Proc.devRef .tc main_v8) = _
  after_results
  rw [Pipeline.withArrays_arr spec0 launch0.win.arr_inj c _ _ 6]
  rfl

/-- The program's result after the closing reshape, in terms of the region's result array as the proof data
    computes it. -/
theorem tail_v8 (dats : (p : Fin 1) → (c : Dev nD) → Dat τ (Elt Ideal) Unit ℕ (UR sig nD τ) ℕ (cfgs p) c)
    (c : Dev nD) (bi : Fin 4) (ti : Fin 2048) (o : Fin 11008) :
    (Pipeline.afterTail₀ cfgs dats 0 (V0 m) [hostOps1] c main_v8 : S4x2048x11008.Idx → EReal) (ix3 bi ti o)
      = ((dats 0 c).arrAt 6 cfg0.N : S8192x11008.Idx → EReal) (ix2 (flatRow bi ti) o) :=
  -- the unflattening keeps the row-major position: (b * 2048 + t) * 11008 + o on both sides
  (congrFun (tail_term m dats c) (ix3 bi ti o)).trans
    (shapeCast_apply _ _ (ix3 bi ti o) (ix2 (flatRow bi ti) o) (by
      rw [Shape.rowMajor_val_two, Shape.rowMajor_val_three]
      rfl))

end Cert.KernelIdeal.HostSide

end
-- ==== Proof.KernelValue.lean ====
/-
  The idealized kernel's result.

  After the run the region's result array holds the layer at every row and channel; the closing host line only
  unflattens it, so entry (b, t, o) of the program's result is the layer at row b * 2048 + t and channel o. The region's
  two input arrays hold the even- and the odd-position inputs of that row, so this is `G` of the program's five
  arguments. The arguments themselves end as launched.
-/
import proofs.«423594_j1623497638587_3_alg».proof.Proof.TileData
import proofs.«423594_j1623497638587_3_alg».proof.Proof.HostSide

noncomputable section

namespace Cert.KernelIdeal.Tile

open Cert.KernelIdeal Cert.KernelIdeal.Gen Idealize.ShloMosaic Idealize.ShloMosaic.TcCoe Idealize.ShloMosaic.ValueIdx
open Idealize.SL Idealize.SL.Sem Idealize.ShloMosaic.Rounds
open Cert.Spec Cert.KernelIdeal.BlockRead Cert.KernelIdeal.HostSide

variable (m : (ℓ : Loc nD τ sig) → Buf (Elt Ideal) ℓ) (ρ : Dev nD → PrngReg)

/-- The layer of the program's five arguments, as one array. -/
def result (c : Dev nD) : S4x2048x11008.Idx → EReal := fun i =>
  G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (i 0) (i 1) (i 2)

/-- What the closing host line leaves in the program's result buffer is the layer. -/
theorem tail_eq_result (c : Dev nD) :
    (Pipeline.afterTail₀ cfgs (dats m) 0 (V0 m) [hostOps1] c main_v8 : S4x2048x11008.Idx → EReal) = result m c := by
  funext i
  obtain ⟨bi, ti, o, rfl⟩ : ∃ (bi : Fin 4) (ti : Fin 2048) (o : Fin 11008), i = ix3 bi ti o := ⟨i 0, i 1, i 2, eq_ix3 i⟩
  rw [tail_v8 m (dats m) c bi ti o, final6 m c]
  show outN m c (flatRow bi ti).val o.val = G _ _ _ _ _ bi ti o
  unfold outN
  rw [dif_pos ⟨(flatRow bi ti).isLt, o.isLt⟩]
  show G2 (XE m c) (XO m c) (PW m c) (SC m c) (ZP m c) (BI m c) (flatRow bi ti) o = _
  have e1 : PW m c = m ((c.tc : Thread nD τ).loc main_arg1) := V_main_arg1 m c
  have e2 : SC m c = m ((c.tc : Thread nD τ).loc main_arg2) := V_main_arg2 m c
  have e3 : ZP m c = m ((c.tc : Thread nD τ).loc main_arg3) := V_main_arg3 m c
  have e4 : BI m c = m ((c.tc : Thread nD τ).loc main_arg4) := V_main_arg4 m c
  rw [e1, e2, e3, e4]
  exact G2_eq_G _ _ _ _ _ _ _ bi ti o (fun j => V_even m c bi ti j) (fun j => V_odd m c bi ti j)

/-- Every weakly fair execution of the idealized program terminates without a fault, with its result the layer of
    its arguments and the arguments as launched. -/
theorem run_value : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v8 (Pipeline.mem_restRefs_of main_v8 (by decide) (by decide))).trans (tail_eq_result m c),
      (((h c).2 main_arg0 (Pipeline.mem_restRefs_of main_arg0 (by decide) (by decide))).trans (W_main_arg0 m (dats m) c)),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c)))⟩)
    (run_main m ρ)

end Cert.KernelIdeal.Tile

end
-- ==== Proof.RefSide.lean ====
/-
  The reference computes the layer `Cert.Spec.G`.

  Its program builds the interleaved weight row explicitly: the low and high codes of every byte are laid side by side
  on a new last axis of length 2 and that axis is flattened into the row, so position i of the row holds the low code of
  byte i / 2 when i is even and the high code when i is odd. The codes and the zero points are read as signed integers,
  exactly; each code has its channel's zero point subtracted and is multiplied by its channel's scale. One product of
  the inputs with that weight contracts all 4096 positions at once, and the bias of the channel is added. Read at the
  entry (b, t, o) the result is the sum over the 4096 positions plus the bias; splitting that sum into the 2048 pairs of
  neighbouring positions gives `G`.
-/
import proofs.«423594_j1623497638587_3_alg».proof.Proof.Gen.ReferenceIdeal.Run
import proofs.«423594_j1623497638587_3_alg».proof.Proof.Gen.ReferenceIdeal.Read
import proofs.«423594_j1623497638587_3_alg».proof.Proof.Spec

noncomputable section

namespace Cert.RefSide

open Cert.ReferenceIdeal Cert.ReferenceIdeal.Gen Idealize.ShloMosaic Idealize.ShloMosaic.ValueIdx

/-- The splat 15 at every index. -/
private theorem v0_at (i : S11008x2048.Idx) : Read.val_main_v0 (F := Ideal) i = 15#32 := by
  rw [Read.val_main_v0_apply, Read.val_main_c_apply]

/-- The splat 4 at every index. -/
private theorem v2_at (i : S11008x2048.Idx) : Read.val_main_v2 (F := Ideal) i = 4#32 := by
  rw [Read.val_main_v2_apply, Read.val_main_c_0_apply]

/-- The second splat 15 at every index. -/
private theorem v4_at (i : S11008x2048.Idx) : Read.val_main_v4 (F := Ideal) i = 15#32 := by
  rw [Read.val_main_v4_apply, Read.val_main_c_1_apply]

/-- The low code of a byte. -/
private theorem v1_at (x1 : (⟨S11008x2048, .i32⟩ : BufTy).Contents (Elt Ideal)) (i : S11008x2048.Idx) :
    Read.val_main_v1 (F := Ideal) x1 i = Cert.Spec.nibLo (x1 i) := by
  rw [Read.val_main_v1_apply, v0_at]; rfl

/-- The high code of a byte. -/
private theorem v5_at (x1 : (⟨S11008x2048, .i32⟩ : BufTy).Contents (Elt Ideal)) (i : S11008x2048.Idx) :
    Read.val_main_v5 (F := Ideal) x1 i = Cert.Spec.nibHi (x1 i) := by
  rw [Read.val_main_v5_apply, v4_at, Read.val_main_v3_apply, v2_at]
  show IntOp.andi (IntOp.shrsi .host (x1 i) 4#32) 15#32 = _
  unfold IntOp.shrsi
  rw [if_pos (by decide)]
  rfl

/-- Entry (o, j, 0) of the stacked codes is the low code of byte (o, j). -/
private theorem v8_lo (x1 : (⟨S11008x2048, .i32⟩ : BufTy).Contents (Elt Ideal)) (o : Fin 11008) (j : Fin 2048) :
    Read.val_main_v8 (F := Ideal) x1 (ix3 o j (0 : Fin 2)) = Cert.Spec.nibLo (x1 (ix2 o j)) := by
  unfold Read.val_main_v8
  refine (concatenate_pair_apply_left (t := S11008x2048x2) (s₁ := S11008x2048x1) (s₂ := S11008x2048x1) (2 : Fin 3) _ _ _
    (ix3 o j (0 : Fin 2)) rfl (ix3 o j (0 : Fin 1)) ?_).trans ?_
  · intro b
    match b with
    | ⟨0, _⟩ => rfl
    | ⟨1, _⟩ => rfl
    | ⟨2, _⟩ => rfl
  · rw [Read.val_main_v6_apply, v1_at]
    have e : Read.idx_main_v6 (ix3 o j (0 : Fin 1)) = ix2 o j := by
      funext a
      match a with
      | ⟨0, _⟩ => rfl
      | ⟨1, _⟩ => rfl
    rw [e]

/-- Entry (o, j, 1) of the stacked codes is the high code of byte (o, j). -/
private theorem v8_hi (x1 : (⟨S11008x2048, .i32⟩ : BufTy).Contents (Elt Ideal)) (o : Fin 11008) (j : Fin 2048) :
    Read.val_main_v8 (F := Ideal) x1 (ix3 o j (1 : Fin 2)) = Cert.Spec.nibHi (x1 (ix2 o j)) := by
  unfold Read.val_main_v8
  refine (concatenate_pair_apply_right (t := S11008x2048x2) (s₁ := S11008x2048x1) (s₂ := S11008x2048x1) (2 : Fin 3) _ _ _
    (ix3 o j (1 : Fin 2)) rfl rfl (ix3 o j (0 : Fin 1)) ?_ ?_).trans ?_
  · intro b hb
    match b, hb with
    | ⟨0, _⟩, _ => rfl
    | ⟨1, _⟩, _ => rfl
    | ⟨2, _⟩, hb => exact absurd rfl hb
  · rfl
  · rw [Read.val_main_v7_apply, v5_at]
    have e : Read.idx_main_v7 (ix3 o j (0 : Fin 1)) = ix2 o j := by
      funext a
      match a with
      | ⟨0, _⟩ => rfl
      | ⟨1, _⟩ => rfl
    rw [e]

/-- Position k of row o of the flattened codes: the low code of byte k / 2 when k is even, the high code when odd. -/
private theorem v9_at (x1 : (⟨S11008x2048, .i32⟩ : BufTy).Contents (Elt Ideal)) (o : Fin 11008) (k : Fin 4096) :
    Read.val_main_v9 (F := Ideal) x1 (ix2 o k)
      = if k.val % 2 = 0 then Cert.Spec.nibLo (x1 (ix2 o ⟨k.val / 2, by omega⟩))
        else Cert.Spec.nibHi (x1 (ix2 o ⟨k.val / 2, by omega⟩)) := by
  rw [Read.val_main_v9_apply]
  by_cases h : k.val % 2 = 0
  · rw [if_pos h]
    have e : Read.idx_main_v9 (ix2 o k) = ix3 o (⟨k.val / 2, by omega⟩ : Fin 2048) (0 : Fin 2) := by
      funext a
      refine Fin.ext ?_
      match a with
      | ⟨0, _⟩ => show (o.val * 4096 + k.val) / 4096 = o.val; omega
      | ⟨1, _⟩ => show (o.val * 4096 + k.val) / 2 % 2048 = k.val / 2; omega
      | ⟨2, _⟩ => show (o.val * 4096 + k.val) % 2 = 0; omega
    rw [e, v8_lo]
  · rw [if_neg h]
    have e : Read.idx_main_v9 (ix2 o k) = ix3 o (⟨k.val / 2, by omega⟩ : Fin 2048) (1 : Fin 2) := by
      funext a
      refine Fin.ext ?_
      match a with
      | ⟨0, _⟩ => show (o.val * 4096 + k.val) / 4096 = o.val; omega
      | ⟨1, _⟩ => show (o.val * 4096 + k.val) / 2 % 2048 = k.val / 2; omega
      | ⟨2, _⟩ => show (o.val * 4096 + k.val) % 2 = 1; omega
    rw [e, v8_hi]

/-- The dequantized weight at (o, k) is the interleaved weight row. -/
private theorem v17_at (x1 : (⟨S11008x2048, .i32⟩ : BufTy).Contents (Elt Ideal)) (x2 : (⟨S11008, .f32⟩ : BufTy).Contents (Elt Ideal))
    (x3 : (⟨S11008, .i32⟩ : BufTy).Contents (Elt Ideal)) (o : Fin 11008) (k : Fin 4096) :
    Read.val_main_v17 (F := Ideal) x1 x2 x3 (ix2 o k) = Cert.Spec.wRow x1 x2 x3 o k := by
  rw [Read.val_main_v17_apply, Read.val_main_v14_apply, Read.val_main_v10_apply, v9_at, Read.val_main_v13_apply,
    Read.val_main_v12_apply, Read.val_main_v11_apply, Read.val_main_v16_apply, Read.val_main_v15_apply]
  have e1 : Read.idx_main_v11 (Read.idx_main_v13 (ix2 o k)) = ix1 o := by
    funext a
    match a with
    | ⟨0, _⟩ => rfl
  have e2 : Read.idx_main_v15 (Read.idx_main_v16 (ix2 o k)) = ix1 o := by
    funext a
    match a with
    | ⟨0, _⟩ => rfl
  rw [e1, e2]
  rfl

/-- The reference's last stage, as a function of the five arguments, is `G` entry by entry. -/
theorem ref_eq_G (x0 : (⟨S4x2048x4096, .f32⟩ : BufTy).Contents (Elt Ideal)) (x1 : (⟨S11008x2048, .i32⟩ : BufTy).Contents (Elt Ideal))
    (x2 : (⟨S11008, .f32⟩ : BufTy).Contents (Elt Ideal)) (x3 : (⟨S11008, .i32⟩ : BufTy).Contents (Elt Ideal))
    (x4 : (⟨S1x11008, .f32⟩ : BufTy).Contents (Elt Ideal)) :
    Cert.ReferenceIdeal.Read.val_main_v21 (F := Ideal) x0 x1 x2 x3 x4
      = fun i => Cert.Spec.G x0 x1 x2 x3 x4 (i 0) (i 1) (i 2) := by
  funext i
  obtain ⟨bi, ti, o, rfl⟩ : ∃ (bi : Fin 4) (ti : Fin 2048) (o : Fin 11008), i = ix3 bi ti o := ⟨_, _, _, eq_ix3 i⟩
  rw [Read.val_main_v21_apply, Read.val_main_v18_apply, Read.val_main_v20_apply, Read.val_main_v19_apply]
  have eb : Read.idx_main_v19 (Read.idx_main_v20 (ix3 bi ti o)) = ix2 (0 : Fin 1) o := by
    funext a
    match a with
    | ⟨0, _⟩ => rfl
    | ⟨1, _⟩ => rfl
  rw [eb]
  refine Eq.trans ?_ (Cert.Spec.G_eq_plain x0 x1 x2 x3 x4 bi ti o)
  show (∑ k : Fin 4096, x0 (Read.lidx_main_v18 (ix3 bi ti o) k) * Read.val_main_v17 (F := Ideal) x1 x2 x3 (Read.ridx_main_v18 (ix3 bi ti o) k))
      + x4 (ix2 (0 : Fin 1) o) = _
  refine congrArg (· + x4 (ix2 (0 : Fin 1) o)) (Finset.sum_congr rfl fun k _ => ?_)
  have el : Read.lidx_main_v18 (ix3 bi ti o) k = ix3 bi ti k := by
    funext a
    match a with
    | ⟨0, _⟩ => rfl
    | ⟨1, _⟩ => rfl
    | ⟨2, _⟩ => rfl
  have er : Read.ridx_main_v18 (ix3 bi ti o) k = ix2 o k := by
    funext a
    match a with
    | ⟨0, _⟩ => rfl
    | ⟨1, _⟩ => rfl
  rw [el, er, v17_at]

end Cert.RefSide

end
-- ==== Proof.lean ====
/-
  The certificate: a 4-bit-weight dense layer against its plain description.

  Both programs compute out (b, t, o) = (sum over i < 4096 of x (b, t, i) * W o i) + bias o, where the weight row W o
  interleaves the two 4-bit codes of each packed byte, each code dequantized as (code - zero point o) * scale o.
  The reference forms the whole weight and contracts the 4096 inputs at once. The kernel splits the inputs into even and
  odd positions, walks the 2048 bytes in eight blocks of 256, and for each block adds to a running sum the even inputs
  against the low codes and the odd inputs against the high codes; after the eighth block it adds the bias. On the
  extended reals these are two groupings of one finite sum in a commutative monoid, so they agree for all inputs; the
  finiteness of the inputs is not used. The kernel's tiles of 1024 channels overhang the 11008 channels by 256 in the
  last column of tiles; an entry of the result depends only on its own channel's weights, so what the buffers hold past
  the arrays' end never reaches a stored entry.
  The word-level program's frame is proved with the result's contents left unnamed; the idealized program's frame and
  value come from one run; the reference's from its run read back operation by operation.
-/
import proofs.«423594_j1623497638587_3_alg».proof.Defs
import proofs.«423594_j1623497638587_3_alg».proof.Proof.Gen.Kernel
import proofs.«423594_j1623497638587_3_alg».proof.Proof.Gen.KernelIdeal
import proofs.«423594_j1623497638587_3_alg».proof.Proof.Gen.ReferenceIdeal
import proofs.«423594_j1623497638587_3_alg».proof.Proof.Gen.Pre_finite_inputs
import proofs.«423594_j1623497638587_3_alg».proof.Proof.KernelFrame
import proofs.«423594_j1623497638587_3_alg».proof.Proof.KernelValue
import proofs.«423594_j1623497638587_3_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.FrameProof.frame (F := Bits) m ρ

theorem frame_ki : Cert.frame_KernelIdeal := fun m ρ _ =>
  (θ_run Cert.KernelIdeal.defs _ _).mono (fun _ h c => (h c).2) (Cert.KernelIdeal.Tile.run_value m ρ)

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end at the layer of the (agreeing) arguments. -/
theorem algebraic : Cert.algebraic_KernelIdeal_ReferenceIdeal := by
  intro m ρ m' ρ' _ hagree
  refine ⟨fun c => Cert.KernelIdeal.Tile.result m c, Cert.KernelIdeal.Tile.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq (F := Ideal) _ _ _ _ _).trans ((Cert.RefSide.ref_eq_G _ _ _ _ _).trans ?_)
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
